-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x16x14x14x768 : Shape := ⟨5, ![16, 16, 14, 14, 768]⟩
abbrev S_ : Shape := ⟨0, ![]⟩

class Facts : Prop where
  bcast_S_S16x16x14x14x768 : S_.BroadcastsInDim S16x16x14x14x768 (![] : Fin 0 → Fin S16x16x14x14x768.rank)
  reducesTo_S16x16x14x14x768_S_d0_1_2_3_4 : S16x16x14x14x768.ReducesTo [0, 1, 2, 3, 4] S_
  h_S_ : 0 < S_.numel

variable [Facts]

def fn {F : FTy → Type} [FloatOps F] (main_arg0 : FVec F S16x16x14x14x768 .f32) : IVec S_ 1 :=
  let main_v0 : FVec F S16x16x14x14x768 .f32 := Host.absf main_arg0
  let main_cst : FVec F S_ .f32 := constant S_ .f32 0x7F800000#32
  let main_v1 : FVec F S16x16x14x14x768 .f32 := broadcastInDim S16x16x14x14x768 ![] bcast_S_S16x16x14x14x768 main_cst
  let main_v2 : IVec S16x16x14x14x768 1 := cmpf .olt main_v0 main_v1
  let main_c : IVec S_ 1 := constantI S_ 1 1#1
  let main_v3 : IVec S_ 1 := (fun x v => Host.reduce IntOp.andi x v reducesTo_S16x16x14x14x768_S_d0_1_2_3_4 h_S_) main_v2 main_c
  main_v3
-- ==== Kernel.lean ====
abbrev S16x16x14x14x768 : Shape := ⟨5, ![16, 16, 14, 14, 768]⟩
abbrev S196 : Shape := ⟨1, ![196]⟩
abbrev S16x16x196x768 : Shape := ⟨4, ![16, 16, 196, 768]⟩
abbrev S1x196x1 : Shape := ⟨3, ![1, 196, 1]⟩
abbrev S1x196x384 : Shape := ⟨3, ![1, 196, 384]⟩
abbrev S1x16x196x384 : Shape := ⟨4, ![1, 16, 196, 384]⟩
abbrev S196x384 : Shape := ⟨2, ![196, 384]⟩
abbrev S1x1x196x384 : Shape := ⟨4, ![1, 1, 196, 384]⟩

abbrev nBuf : Space → Nat
  | .hbm => 7
  | .vmem => 5
  | .smem => 0
  | _ => 0

abbrev bufTy : (tb : Table) → Fin (tcTables nBuf tb) → BufTy
  | .hbm, ⟨0, _⟩ => ⟨S16x16x14x14x768, .f32⟩
  | .hbm, ⟨1, _⟩ => ⟨S196, .i32⟩
  | .hbm, ⟨2, _⟩ => ⟨S16x16x196x768, .f32⟩
  | .hbm, ⟨3, _⟩ => ⟨S1x196x1, .i32⟩
  | .hbm, ⟨4, _⟩ => ⟨S1x196x384, .i32⟩
  | .hbm, ⟨5, _⟩ => ⟨S16x16x196x768, .f32⟩
  | .hbm, ⟨6, _⟩ => ⟨S16x16x14x14x768, .f32⟩
  | .local _ .vmem, ⟨0, _⟩ => ⟨S1x196x384, .i32⟩
  | .local _ .vmem, ⟨1, _⟩ => ⟨S1x16x196x384, .f32⟩
  | .local _ .vmem, ⟨2, _⟩ => ⟨S1x16x196x384, .f32⟩
  | .local _ .vmem, ⟨3, _⟩ => ⟨S1x16x196x384, .f32⟩
  | .local _ .vmem, ⟨4, _⟩ => ⟨S1x16x196x384, .f32⟩
  | _, _ => ⟨S16x16x14x14x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_c : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![16, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

abbrev stage0_0 : Fin 1 → Memref sig .tc .vmem S1x196x384 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x16x196x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x196x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  shapeCasts_S16x16x14x14x768_S16x16x196x768 : S16x16x14x14x768.ShapeCasts S16x16x196x768
  shapeCasts_S196_S1x196x1 : S196.ShapeCasts S1x196x1
  bcast_S1x196x1_S1x196x384_0_1_2 : S1x196x1.BroadcastsInDim S1x196x384 (![0, 1, 2] : Fin 3 → Fin S1x196x384.rank)
  inb_S1x196x384_S1x196x384_0_0_0 : ∀ a, (![0, 0, 0] : Fin 3 → Nat) a + S1x196x384.size a ≤ S1x196x384.size a
  h_S1x196x384 : 0 < S1x196x384.numel
  shapeCasts_S1x196x384_S196x384 : S1x196x384.ShapeCasts S196x384
  inb_S1x16x196x384_S1x1x196x384_0_4_0_0 : ∀ a, (![0, 4, 0, 0] : Fin 4 → Nat) a + S1x1x196x384.size a ≤ S1x16x196x384.size a
  h_S1x1x196x384 : 0 < S1x1x196x384.numel
  shapeCasts_S1x1x196x384_S196x384 : S1x1x196x384.ShapeCasts S196x384
  inb_S1x16x196x384_S1x1x196x384_0_3_0_0 : ∀ a, (![0, 3, 0, 0] : Fin 4 → Nat) a + S1x1x196x384.size a ≤ S1x16x196x384.size a
  inb_S1x16x196x384_S1x1x196x384_0_2_0_0 : ∀ a, (![0, 2, 0, 0] : Fin 4 → Nat) a + S1x1x196x384.size a ≤ S1x16x196x384.size a
  inb_S1x16x196x384_S1x1x196x384_0_1_0_0 : ∀ a, (![0, 1, 0, 0] : Fin 4 → Nat) a + S1x1x196x384.size a ≤ S1x16x196x384.size a
  inb_S1x16x196x384_S1x1x196x384_0_0_0_0 : ∀ a, (![0, 0, 0, 0] : Fin 4 → Nat) a + S1x1x196x384.size a ≤ S1x16x196x384.size a
  inb_S1x16x196x384_S1x1x196x384_0_15_0_0 : ∀ a, (![0, 15, 0, 0] : Fin 4 → Nat) a + S1x1x196x384.size a ≤ S1x16x196x384.size a
  inb_S1x16x196x384_S1x1x196x384_0_14_0_0 : ∀ a, (![0, 14, 0, 0] : Fin 4 → Nat) a + S1x1x196x384.size a ≤ S1x16x196x384.size a
  inb_S1x16x196x384_S1x1x196x384_0_13_0_0 : ∀ a, (![0, 13, 0, 0] : Fin 4 → Nat) a + S1x1x196x384.size a ≤ S1x16x196x384.size a
  inb_S1x16x196x384_S1x1x196x384_0_12_0_0 : ∀ a, (![0, 12, 0, 0] : Fin 4 → Nat) a + S1x1x196x384.size a ≤ S1x16x196x384.size a
  shapeCasts_S196x384_S1x1x196x384 : S196x384.ShapeCasts S1x1x196x384
  inb_S1x16x196x384_S1x1x196x384_0_5_0_0 : ∀ a, (![0, 5, 0, 0] : Fin 4 → Nat) a + S1x1x196x384.size a ≤ S1x16x196x384.size a
  inb_S1x16x196x384_S1x1x196x384_0_6_0_0 : ∀ a, (![0, 6, 0, 0] : Fin 4 → Nat) a + S1x1x196x384.size a ≤ S1x16x196x384.size a
  inb_S1x16x196x384_S1x1x196x384_0_7_0_0 : ∀ a, (![0, 7, 0, 0] : Fin 4 → Nat) a + S1x1x196x384.size a ≤ S1x16x196x384.size a
  inb_S1x16x196x384_S1x1x196x384_0_8_0_0 : ∀ a, (![0, 8, 0, 0] : Fin 4 → Nat) a + S1x1x196x384.size a ≤ S1x16x196x384.size a
  inb_S1x16x196x384_S1x1x196x384_0_9_0_0 : ∀ a, (![0, 9, 0, 0] : Fin 4 → Nat) a + S1x1x196x384.size a ≤ S1x16x196x384.size a
  inb_S1x16x196x384_S1x1x196x384_0_10_0_0 : ∀ a, (![0, 10, 0, 0] : Fin 4 → Nat) a + S1x1x196x384.size a ≤ S1x16x196x384.size a
  inb_S1x16x196x384_S1x1x196x384_0_11_0_0 : ∀ a, (![0, 11, 0, 0] : Fin 4 → Nat) a + S1x1x196x384.size a ≤ S1x16x196x384.size a
  shapeCasts_S16x16x196x768_S16x16x14x14x768 : S16x16x196x768.ShapeCasts S16x16x14x14x768
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x196x384.size a ≤ S1x196x384.size a
  hwx0_0 : ∀ i : grid0.Coords, EltTy.bits .i32 = 32 ∨ (Rect.block (s := S1x196x384) S1x196x384.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x16x196x384.size a ≤ S16x16x196x768.size a
  hwx0_1 : ∀ i : grid0.Coords, EltTy.bits .f32 = 32 ∨ (Rect.block (s := S16x16x196x768) S1x16x196x384.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x16x196x384.size a ≤ S16x16x196x768.size a
  hwx0_2 : ∀ i : grid0.Coords, EltTy.bits .f32 = 32 ∨ (Rect.block (s := S16x16x196x768) S1x16x196x384.size (cc0_transform_2 i) (hinb0_2 i)).WholeWords (EltTy.packing .f32)

variable [Facts₀]

abbrev win0_0 : Pipeline.Window sig grid0 :=
  Pipeline.Window.ofSpec (Memref.whole main_v2) S1x196x384.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x16x196x384.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x16x196x384.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16x16x14x14x768 : Shape := ⟨5, ![16, 16, 14, 14, 768]⟩
abbrev S196 : Shape := ⟨1, ![196]⟩
abbrev S16x16x196x768 : Shape := ⟨4, ![16, 16, 196, 768]⟩
abbrev S16 : Shape := ⟨1, ![16]⟩
abbrev S16x1 : Shape := ⟨2, ![16, 1]⟩
abbrev S1x196 : Shape := ⟨2, ![1, 196]⟩
abbrev S16x196 : Shape := ⟨2, ![16, 196]⟩
abbrev S_ : Shape := ⟨0, ![]⟩
abbrev S16x196x1 : Shape := ⟨3, ![16, 196, 1]⟩
abbrev S16x196x2 : Shape := ⟨3, ![16, 196, 2]⟩

abbrev nBuf : Space → Nat
  | .hbm => 53
  | .vmem => 0
  | .smem => 0
  | _ => 0

abbrev bufTy : (tb : Table) → Fin (tcTables nBuf tb) → BufTy
  | .hbm, ⟨0, _⟩ => ⟨S16x16x14x14x768, .f32⟩
  | .hbm, ⟨1, _⟩ => ⟨S196, .i32⟩
  | .hbm, ⟨2, _⟩ => ⟨S16x16x196x768, .f32⟩
  | .hbm, ⟨3, _⟩ => ⟨S16, .i32⟩
  | .hbm, ⟨4, _⟩ => ⟨S16x1, .i32⟩
  | .hbm, ⟨5, _⟩ => ⟨S1x196, .i32⟩
  | .hbm, ⟨6, _⟩ => ⟨S16x196, .i32⟩
  | .hbm, ⟨7, _⟩ => ⟨S16x196, .i32⟩
  | .hbm, ⟨8, _⟩ => ⟨S16x196, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i1⟩
  | .hbm, ⟨13, _⟩ => ⟨S_, .i32⟩
  | .hbm, ⟨14, _⟩ => ⟨S_, .i32⟩
  | .hbm, ⟨15, _⟩ => ⟨S16x196, .i32⟩
  | .hbm, ⟨16, _⟩ => ⟨S16x196, .i32⟩
  | .hbm, ⟨17, _⟩ => ⟨S_, .i32⟩
  | .hbm, ⟨18, _⟩ => ⟨S16x196, .i32⟩
  | .hbm, ⟨19, _⟩ => ⟨S16x196, .i1⟩
  | .hbm, ⟨20, _⟩ => ⟨S_, .i32⟩
  | .hbm, ⟨21, _⟩ => ⟨S16x196, .i32⟩
  | .hbm, ⟨22, _⟩ => ⟨S16x196, .i1⟩
  | .hbm, ⟨23, _⟩ => ⟨S_, .i32⟩
  | .hbm, ⟨24, _⟩ => ⟨S_, .i1⟩
  | .hbm, ⟨25, _⟩ => ⟨S16x196, .i1⟩
  | .hbm, ⟨26, _⟩ => ⟨S16x196, .i1⟩
  | .hbm, ⟨27, _⟩ => ⟨S16x196, .i1⟩
  | .hbm, ⟨28, _⟩ => ⟨S16x196, .i32⟩
  | .hbm, ⟨29, _⟩ => ⟨S16x196, .i32⟩
  | .hbm, ⟨30, _⟩ => ⟨S16x196, .i32⟩
  | .hbm, ⟨31, _⟩ => ⟨S196, .i32⟩
  | .hbm, ⟨32, _⟩ => ⟨S1x196, .i32⟩
  | .hbm, ⟨33, _⟩ => ⟨S_, .i32⟩
  | .hbm, ⟨34, _⟩ => ⟨S16x196, .i32⟩
  | .hbm, ⟨35, _⟩ => ⟨S16x196, .i1⟩
  | .hbm, ⟨36, _⟩ => ⟨S_, .i32⟩
  | .hbm, ⟨37, _⟩ => ⟨S16x196, .i32⟩
  | .hbm, ⟨38, _⟩ => ⟨S16x196, .i32⟩
  | .hbm, ⟨39, _⟩ => ⟨S16x196, .i32⟩
  | .hbm, ⟨40, _⟩ => ⟨S_, .i32⟩
  | .hbm, ⟨41, _⟩ => ⟨S1x196, .i32⟩
  | .hbm, ⟨42, _⟩ => ⟨S1x196, .i1⟩
  | .hbm, ⟨43, _⟩ => ⟨S_, .i32⟩
  | .hbm, ⟨44, _⟩ => ⟨S1x196, .i32⟩
  | .hbm, ⟨45, _⟩ => ⟨S1x196, .i32⟩
  | .hbm, ⟨46, _⟩ => ⟨S1x196, .i32⟩
  | .hbm, ⟨47, _⟩ => ⟨S16x196, .i32⟩
  | .hbm, ⟨48, _⟩ => ⟨S16x196x1, .i32⟩
  | .hbm, ⟨49, _⟩ => ⟨S16x196x1, .i32⟩
  | .hbm, ⟨50, _⟩ => ⟨S16x196x2, .i32⟩
  | .hbm, ⟨51, _⟩ => ⟨S16x16x196x768, .f32⟩
  | .hbm, ⟨52, _⟩ => ⟨S16x16x14x14x768, .f32⟩
  | _, _ => ⟨S16x16x14x14x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_c_0 : Ref sig .tc := ⟨.hbm, 9, rfl⟩
abbrev main_call0_v0 : Ref sig .tc := ⟨.hbm, 10, rfl⟩
abbrev main_call0_c : Ref sig .tc := ⟨.hbm, 11, rfl⟩
abbrev main_call0_v1 : Ref sig .tc := ⟨.hbm, 12, rfl⟩
abbrev main_call0_c_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_c_1 : Ref sig .tc := ⟨.hbm, 17, rfl⟩
abbrev main_call0_v5 : Ref sig .tc := ⟨.hbm, 18, rfl⟩
abbrev main_call0_v6 : Ref sig .tc := ⟨.hbm, 19, rfl⟩
abbrev main_call0_c_2 : Ref sig .tc := ⟨.hbm, 20, rfl⟩
abbrev main_call0_v7 : Ref sig .tc := ⟨.hbm, 21, rfl⟩
abbrev main_call0_v8 : Ref sig .tc := ⟨.hbm, 22, rfl⟩
abbrev main_call0_c_3 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_v12 : Ref sig .tc := ⟨.hbm, 27, rfl⟩
abbrev main_call0_v13 : Ref sig .tc := ⟨.hbm, 28, rfl⟩
abbrev main_call0_v14 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_c_1 : Ref sig .tc := ⟨.hbm, 33, rfl⟩
abbrev main_v10 : Ref sig .tc := ⟨.hbm, 34, rfl⟩
abbrev main_v11 : Ref sig .tc := ⟨.hbm, 35, rfl⟩
abbrev main_c_2 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_c_3 : Ref sig .tc := ⟨.hbm, 40, rfl⟩
abbrev main_v15 : Ref sig .tc := ⟨.hbm, 41, rfl⟩
abbrev main_v16 : Ref sig .tc := ⟨.hbm, 42, rfl⟩
abbrev main_c_4 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩

abbrev nD : Nat := 1
abbrev τ : Topo := Topo.v7x

variable {F : FTy → Type} [FloatOps F]

class Facts₀ : Prop where
  shapeCasts_S16x16x14x14x768_S16x16x196x768 : S16x16x14x14x768.ShapeCasts S16x16x196x768
  bcast_S16_S16x1_0 : S16.BroadcastsInDim S16x1 (![0] : Fin 1 → Fin S16x1.rank)
  bcast_S196_S1x196_1 : S196.BroadcastsInDim S1x196 (![1] : Fin 1 → Fin S1x196.rank)
  bcast_S16x1_S16x196_0_1 : S16x1.BroadcastsInDim S16x196 (![0, 1] : Fin 2 → Fin S16x196.rank)
  bcast_S1x196_S16x196_0_1 : S1x196.BroadcastsInDim S16x196 (![0, 1] : Fin 2 → Fin S16x196.rank)
  bcast_S_S16x196 : S_.BroadcastsInDim S16x196 (![] : Fin 0 → Fin S16x196.rank)
  bcast_S_S1x196 : S_.BroadcastsInDim S1x196 (![] : Fin 0 → Fin S1x196.rank)
  bcast_S16x196_S16x196x1_0_1 : S16x196.BroadcastsInDim S16x196x1 (![0, 1] : Fin 2 → Fin S16x196x1.rank)
  concatenates_S16x196x1_S16x196x1_S16x196x2_d2 : Shape.Concatenates [S16x196x1, S16x196x1] S16x196x2 2
  shapeCasts_S16x16x196x768_S16x16x14x14x768 : S16x16x196x768.ShapeCasts S16x16x14x14x768
  gather_S16x16x196x768_S16x196x2_S16x16x196x768_03_12_n_n_12_2_1611768_wf : GatherDims.WF S16x16x196x768 S16x196x2 S16x16x196x768 [0, 3] [1, 2] [] [1, 2] [] 2 ![16, 1, 1, 768]

variable [Facts₀]

def gather_S16x16x196x768_S16x196x2_S16x16x196x768_03_12_n_n_12_2_1611768 : GatherDims S16x16x196x768 S16x196x2 S16x16x196x768 where
  offsetDims := [0, 3]
  collapsedSliceDims := [1, 2]
  operandBatchingDims := []
  startIndicesBatchingDims := []
  startIndexMap := [1, 2]
  indexVectorDim := 2
  sliceSizes := ![16, 1, 1, 768]
  wf := gather_S16x16x196x768_S16x196x2_S16x16x196x768_03_12_n_n_12_2_1611768_wf

class Facts : Prop extends Facts₀ where

variable [Facts]
-- ==== Proof.Spec.lean ====
/-
  A circular shift along the time axis, patch by patch.

  The array `x : [16, 16, 14, 14, 768]` (batch, time, patch row, patch column, channel) is read with its 14 × 14 patch
  grid flattened to `n < 196`. Patch `n` carries a fixed integer shift `s(n)` between −4 and 4, and the result at
  time `t` is the array at time `(t − s(n)) mod 16`, every other coordinate in place: `torch.roll` along time by
  `s(n)`. Nothing is computed on the elements, so the statement holds for any element type.

  The shifts are kept as 32-bit two's-complement words, as both programs hold them. Because 16 divides 2³², the residue
  of a word mod 16 is the residue of the signed shift, and `(t − s) mod 16` is the subtraction of that residue in
  `Fin 16`.
-/
import Idealize.ShloMosaic.PureOps.Ideal
import Idealize.ShloMosaic.Lib.ValueIdx
import Idealize.ShloMosaic.Lib.Pipeline.Value

noncomputable section

open Idealize.ShloMosaic Idealize.ShloMosaic.ValueIdx

namespace Cert.PatchShift

/-- The array with its patch grid as rows and columns. -/
abbrev S5 : Shape := ⟨5, ![16, 16, 14, 14, 768]⟩
/-- The array with its patch grid flattened. -/
abbrev S4 : Shape := ⟨4, ![16, 16, 196, 768]⟩

/-- The shift of patch `n`, by the residues mod 3 of its column `n mod 7` and its row `n / 7` in a grid seven wide;
    the middle class is 0 at its first patch (`n = 8`, where column and row agree) and −1 from then on. -/
def shift (n : Fin 196) : BitVec 32 :=
  match (n.val % 7) % 3, (n.val / 7) % 3 with
  | 0, 0 => 4294967292#32
  | 0, 1 => 1#32
  | 0, _ => 2#32
  | 1, 0 => 4294967295#32
  | 1, 1 => if n.val = 8 then 0#32 else 4294967295#32
  | 1, _ => 3#32
  | _, 0 => 4294967294#32
  | _, 1 => 4294967293#32
  | _, _ => 4#32

/-- The nine words a shift can be: −4, …, 4. -/
def words : List (BitVec 32) :=
  [4294967292#32, 4294967293#32, 4294967294#32, 4294967295#32, 0#32, 1#32, 2#32, 3#32, 4#32]

theorem shift_mem (n : Fin 196) : shift n ∈ words := by
  revert n; decide

/-- The time read for time `t` under the shift word `w`: `t` minus the word's residue mod 16. -/
def srcRow (t : Fin 16) (w : BitVec 32) : Fin 16 := t - ⟨w.toNat % 16, Nat.mod_lt _ (by decide)⟩

/-- A chain of selections on the shift word: the value for shift −4, overridden in turn where the word is −3, …, 4 by
    the value for that shift. -/
def pick {α : Type} (w : BitVec 32) (f : Fin 16 → α) (t : Fin 16) : α :=
  Scalar.select (IntOp.cmpi .eq w 4#32) (f (t - 4))
  (Scalar.select (IntOp.cmpi .eq w 3#32) (f (t - 3))
  (Scalar.select (IntOp.cmpi .eq w 2#32) (f (t - 2))
  (Scalar.select (IntOp.cmpi .eq w 1#32) (f (t - 1))
  (Scalar.select (IntOp.cmpi .eq w 0#32) (f t)
  (Scalar.select (IntOp.cmpi .eq w 4294967295#32) (f (t + 1))
  (Scalar.select (IntOp.cmpi .eq w 4294967294#32) (f (t + 2))
  (Scalar.select (IntOp.cmpi .eq w 4294967293#32) (f (t + 3)) (f (t + 4)))))))))

/-- On one of the nine words the chain reads the time that word's shift names: at each word every comparison of the
    chain is decided, and the time left is `t` minus the word's residue, for each of the sixteen times. -/
theorem pick_eq {α : Type} (w : BitVec 32) (hw : w ∈ words) (f : Fin 16 → α) (t : Fin 16) :
    pick w f t = f (srcRow t w) := by
  simp only [words, List.mem_cons, List.not_mem_nil, or_false] at hw
  rcases hw with rfl | rfl | rfl | rfl | rfl | rfl | rfl | rfl | rfl
  · exact (rfl : pick 4294967292#32 f t = f (t + 4)).trans (congrArg f (by revert t; decide))
  · exact (rfl : pick 4294967293#32 f t = f (t + 3)).trans (congrArg f (by revert t; decide))
  · exact (rfl : pick 4294967294#32 f t = f (t + 2)).trans (congrArg f (by revert t; decide))
  · exact (rfl : pick 4294967295#32 f t = f (t + 1)).trans (congrArg f (by revert t; decide))
  · exact (rfl : pick 0#32 f t = f t).trans (congrArg f (by revert t; decide))
  · exact (rfl : pick 1#32 f t = f (t - 1)).trans (congrArg f (by revert t; decide))
  · exact (rfl : pick 2#32 f t = f (t - 2)).trans (congrArg f (by revert t; decide))
  · exact (rfl : pick 3#32 f t = f (t - 3)).trans (congrArg f (by revert t; decide))
  · exact (rfl : pick 4#32 f t = f (t - 4)).trans (congrArg f (by revert t; decide))

/-- The shifted array over the flattened patch grid. -/
def rolled {α : Type} (x : S4.Idx → α) : S4.Idx → α :=
  fun j => x (ix4 (j 0) (srcRow (j 1) (shift (j 2))) (j 2) (j 3))

theorem rolled_apply {α : Type} (x : S4.Idx → α) (b : Fin 16) (t : Fin 16) (n : Fin 196) (c : Fin 768) :
    rolled x (ix4 b t n c) = x (ix4 b (srcRow t (shift n)) n c) := rfl

/-- THE RESULT as one function of the argument array: flatten the patch grid, shift, restore the grid. -/
def G {α : Type} (h₁ : S5.ShapeCasts S4) (h₂ : S4.ShapeCasts S5) (x : S5.Idx → α) : S5.Idx → α :=
  shapeCast S5 (rolled (shapeCast S4 x h₁)) h₂

end Cert.PatchShift

end
-- ==== Proof.Body.lean ====
/-
  What the kernel body leaves in its output block.

  At a grid point the body holds a block `x1 : [1, 16, 196, 384]` of the array (one batch entry, all sixteen times, all
  patches, one half of the channels) and the table block `x0 : [1, 196, 384]` of shift words, the word of patch `n`
  repeated along the channels. For each time `t` it stores one row of the output block: starting from the input row for
  shift −4 it overrides, where the word is −3, …, 4, with the input row for that shift. At `(t, n, c)` this is the chain
  `pick` of the specification on the word at `(n, c)` over the sixteen input rows at `(n, c)`. The sixteen stores fill
  the block, so the block after the body is that one function of the two input blocks.
-/
import proofs.«403649_j62474594287749_3_alg».proof.Proof.Spec
import proofs.«403649_j62474594287749_3_alg».proof.Proof.Gen.KernelIdeal.Frame
import Idealize.ShloMosaic.Lib.ValueIdx
import Idealize.ShloMosaic.Lib.Pipeline.Value

noncomputable section

open Idealize.ShloMosaic Idealize.ShloMosaic.ValueIdx Idealize.SL.Sem
open Cert.KernelIdeal Cert.KernelIdeal.Gen Cert.PatchShift

namespace Cert.PatchShift.Kernel

variable {F : FTy → Type} [FloatOps F]

/-! ## Reading the body's re-laid values at an index -/

/-- The table block without its leading unit axis: `(n, c)` reads `(0, n, c)`. -/
theorem castShift {α : Type} (v : S1x196x384.Idx → α) (h : S1x196x384.ShapeCasts S196x384) (n : Fin 196) (c : Fin 384) :
    shapeCast S196x384 v h (ix2 n c) = v (ix3 0 n c) := by
  refine shapeCast_apply v h (ix2 n c) (ix3 0 n c) ?_
  rw [Shape.rowMajor_val_three, Shape.rowMajor_val_two]
  show ((0 : Nat) * 196 + n.val) * 384 + c.val = n.val * 384 + c.val
  omega

/-- One loaded row without its two leading unit axes: `(n, c)` reads `(0, 0, n, c)`. -/
theorem castRow {α : Type} (v : S1x1x196x384.Idx → α) (h : S1x1x196x384.ShapeCasts S196x384) (n : Fin 196) (c : Fin 384) :
    shapeCast S196x384 v h (ix2 n c) = v (ix4 0 0 n c) := by
  refine shapeCast_apply v h (ix2 n c) (ix4 0 0 n c) ?_
  rw [Shape.rowMajor_val_four, Shape.rowMajor_val_two]
  show (((0 : Nat) * 1 + 0) * 196 + n.val) * 384 + c.val = n.val * 384 + c.val
  omega

/-- A computed row with the two unit axes put back: `(0, 0, n, c)` reads `(n, c)`. -/
theorem castBack {α : Type} (v : S196x384.Idx → α) (h : S196x384.ShapeCasts S1x1x196x384) (n : Fin 196) (c : Fin 384) :
    shapeCast S1x1x196x384 v h (ix4 0 0 n c) = v (ix2 n c) := by
  refine shapeCast_apply v h (ix4 0 0 n c) (ix2 n c) ?_
  rw [Shape.rowMajor_val_four, Shape.rowMajor_val_two]
  show n.val * 384 + c.val = (((0 : Nat) * 1 + 0) * 196 + n.val) * 384 + c.val
  omega

/-- A comparison of two integer vectors at an index compares the elements. -/
theorem cmpiAt {s : Shape} {w : Nat} (p : CmpIPredicate) (a b : IVec s w) (i : s.Idx) :
    cmpi p a b i = IntOp.cmpi p (a i) (b i) := rfl

/-- Row `row` of the block, as a rectangle of one time: its entry `(0, 0, n, c)` is the block's `(0, row, n, c)`. -/
theorem idxRow (row : Nat) (inb : ∀ a, (![0, row, 0, 0] : Fin 4 → Nat) a + (![1, 1, 196, 384] : Fin 4 → Nat) a ≤ S1x16x196x384.size a)
    (n : Fin 196) (c : Fin 384) :
    (Rect.unit (s := S1x16x196x384) ![0, row, 0, 0] ![1, 1, 196, 384] inb).toLoadRect.idx (ix4 0 0 n c)
      = ix4 0 ⟨row, by have := inb 1; simpa using this⟩ n c := by
  funext a
  refine Fin.ext ?_
  match a with
  | ⟨0, _⟩ => rfl
  | ⟨1, _⟩ => show row + 1 * 0 = row; omega
  | ⟨2, _⟩ => show 0 + 1 * n.val = n.val; omega
  | ⟨3, _⟩ => show 0 + 1 * c.val = c.val; omega

/-- The same for where a store of that row lands. -/
theorem embRow (row : Nat) (inb : ∀ a, (![0, row, 0, 0] : Fin 4 → Nat) a + (![1, 1, 196, 384] : Fin 4 → Nat) a ≤ S1x16x196x384.size a)
    (n : Fin 196) (c : Fin 384) :
    (Rect.unit (s := S1x16x196x384) ![0, row, 0, 0] ![1, 1, 196, 384] inb).emb (ix4 0 0 n c)
      = ix4 0 ⟨row, by have := inb 1; simpa using this⟩ n c := idxRow row inb n c

/-- The whole table block read through its own rectangle. -/
theorem idxShift (inb : ∀ a, (![0, 0, 0] : Fin 3 → Nat) a + (![1, 196, 384] : Fin 3 → Nat) a ≤ S1x196x384.size a)
    (n : Fin 196) (c : Fin 384) :
    (Rect.unit (s := S1x196x384) ![0, 0, 0] ![1, 196, 384] inb).toLoadRect.idx (ix3 0 n c) = ix3 0 n c := by
  funext a
  refine Fin.ext ?_
  match a with
  | ⟨0, _⟩ => rfl
  | ⟨1, _⟩ => show 0 + 1 * n.val = n.val; omega
  | ⟨2, _⟩ => show 0 + 1 * c.val = c.val; omega

/-- An index of one row has coordinates `(0, 0, n, c)`. -/
theorem unitRow (x : (⟨4, ![1, 1, 196, 384]⟩ : Shape).Idx) : ∃ (n : Fin 196) (c : Fin 384), x = ix4 0 0 n c :=
  ⟨x 2, x 3, by
    funext a
    match a with
    | ⟨0, _⟩ => exact Subsingleton.elim (α := Fin 1) _ _
    | ⟨1, _⟩ => exact Subsingleton.elim (α := Fin 1) _ _
    | ⟨2, _⟩ => rfl
    | ⟨3, _⟩ => rfl⟩

/-! ## The block after the body -/

/-- The output block as one function of the table block and the input block: at time `t`, patch `n`, channel `c` the
    chain on the word at `(n, c)` over the input's sixteen times at `(n, c)`. -/
def blockOut (x0 : Vec F S1x196x384 .i32) (x1 : Vec F S1x16x196x384 .f32) : Vec F S1x16x196x384 .f32 :=
  fun y => pick (x0 (ix3 0 (y 2 : Fin 196) (y 3 : Fin 384))) (fun r => x1 (ix4 0 r (y 2 : Fin 196) (y 3 : Fin 384))) (y 1 : Fin 16)

theorem blockOut_apply (x0 : Vec F S1x196x384 .i32) (x1 : Vec F S1x16x196x384 .f32) (t : Fin 16) (n : Fin 196) (c : Fin 384) :
    blockOut x0 x1 (ix4 0 t n c) = pick (x0 (ix3 0 n c)) (fun r => x1 (ix4 0 r n c)) t := rfl

/-- THE BODY'S BLOCK: each of the sixteen stored rows is the chain at its time, and the rows fill the block. -/
theorem out_eq (x0 : Vec F S1x196x384 .i32) (x1 : Vec F S1x16x196x384 .f32) : out0_2 x0 x1 = blockOut x0 x1 := by
  funext y
  unfold out0_2
  refine View.canon_apply_of_pieces (blockOut x0 x1) _ ?_ y (cover0_2 _ _ _ _ _ _ _ _ _ _ _ _ _ _ _ _ y)
  intro p hp
  simp only [List.mem_cons, List.mem_nil_iff, or_false] at hp
  rcases hp with rfl | rfl | rfl | rfl | rfl | rfl | rfl | rfl | rfl | rfl | rfl | rfl | rfl | rfl | rfl | rfl
  all_goals
    intro x
    obtain ⟨n, c, rfl⟩ := unitRow x
    simp only [k0_pay1, k0_pay2, k0_pay3, k0_pay4, k0_pay5, k0_pay6, k0_pay7, k0_pay8, k0_pay9, k0_pay10, k0_pay11, k0_pay12,
      k0_pay13, k0_pay14, k0_pay15, k0_pay16, k0_pay17, k0_pay18, k0_pay19, k0_pay20, k0_pay21, k0_pay22, k0_pay23,
      k0_pay24, k0_pay25, k0_pay26, k0_pay27, k0_pay28, k0_pay29, k0_pay30, k0_pay31, k0_pay32, k0_pay33, k0_pay34,
      k0_pay35, k0_pay36, k0_pay37, k0_pay38, k0_pay39, k0_pay40, k0_pay41, k0_pay42, k0_pay43, k0_pay44,
      castBack, select_apply, castRow, cmpiAt, broadcast_apply, castShift,
      r0_0, r0_1, r0_2, r0_3, r0_4, r0_5, r0_6, r0_7, r0_8, r0_9, r0_10, r0_11, r0_12, r0_13, r0_14, r0_15, r0_16,
      View.ld, idxRow, idxShift, embRow, blockOut_apply]
    rfl

end Cert.PatchShift.Kernel

end
-- ==== Proof.Blocks.lean ====
/-
  From the blocks to the array.

  The grid has 32 points, `t = 2·b + h`: batch entry `b < 16` and channel half `h < 2`. At point `t` the input and output
  windows hold block `(b, ·, ·, h)` of their arrays — all sixteen times, all 196 patches, channels `384·h … 384·h + 383` —
  and the table window holds the whole table every time. The table array is the constant list of 196 shift words laid along the
  patches and repeated along the channels, so the table block at `(n, c)` is the shift word of patch `n`. With the body's block
  (the chain on that word over the input block's sixteen times) this makes what point `t` writes back the block at `t` of the
  shifted array; the 32 blocks tile the array, so the array ends as the shifted array.
-/
import proofs.«403649_j62474594287749_3_alg».proof.Proof.Body
import Idealize.ShloMosaic.Lib.StableHlo.Run
import Idealize.ShloMosaic.Lib.IdealHost

set_option maxRecDepth 16384

noncomputable section

open Idealize.ShloMosaic Idealize.ShloMosaic.ValueIdx Idealize.ShloMosaic.TcCoe Idealize.SL.Sem Idealize.ShloMosaic.StableHlo
open Cert.KernelIdeal Cert.KernelIdeal.Gen Cert.PatchShift
open Idealize.ShloMosaic.Pipeline (Dat Cfg Window)

namespace Cert.PatchShift.Kernel

variable {F : FTy → Type} [FloatOps F]
variable (m : (ℓ : Loc nD τ sig) → Buf (Elt F) ℓ)

/-! ## The arrays the region finds -/

/-- The input array with its patch grid flattened. -/
theorem V_v0 (c : Dev nD) : (V m c main_v0 : S16x16x196x768.Idx → Elt F .f32)
    = shapeCast S16x16x196x768 (m ((c : Thread nD τ).loc main_arg0)) shapeCasts_S16x16x14x14x768_S16x16x196x768 := by
  show StableHlo.after hostOps0 (fun b => m (c, b)) (Proc.devRef .tc main_v0) = _
  after_results
  rfl

/-- The table array: the 196 words as a column, repeated along 384 channels. -/
theorem V_v2 (c : Dev nD) : (V m c main_v2 : S1x196x384.Idx → BitVec 32)
    = broadcastInDim S1x196x384 ![0, 1, 2] bcast_S1x196x1_S1x196x384_0_1_2
        (shapeCast S1x196x1 (fun i : S196.Idx => lit0 (S196.rowMajor i)) shapeCasts_S196_S1x196x1) := by
  show StableHlo.after hostOps0 (fun b => m (c, b)) (Proc.devRef .tc main_v2) = _
  after_results
  rfl

/-- The constant list is the shift of each patch. -/
theorem lit_eq : ∀ n : Fin 196, lit0 n = shift n := by decide

/-- The table array at `(0, n, c)` is the shift word of patch `n`. -/
theorem table_apply (c : Dev nD) (n : Fin 196) (c' : Fin 384) : (V m c main_v2 : S1x196x384.Idx → BitVec 32) (ix3 0 n c') = shift n := by
  rw [V_v2]
  refine (broadcastInDim_apply ![0, 1, 2] bcast_S1x196x1_S1x196x384_0_1_2 _ (ix3 0 n c') (ix3 0 n 0) ?_).trans ?_
  · intro a
    match a with
    | ⟨0, _⟩ => rfl
    | ⟨1, _⟩ => show n.val = if (196 : Nat) = 1 then 0 else n.val; rw [if_neg (by decide)]
    | ⟨2, _⟩ => rfl
  refine (shapeCast_apply _ shapeCasts_S196_S1x196x1 (ix3 0 n 0) (ix1 n) ?_).trans ?_
  · rw [Shape.rowMajor_val_one, Shape.rowMajor_val_three]
    show n.val = ((0 : Nat) * 196 + n.val) * 1 + 0
    omega
  · show lit0 (S196.rowMajor (ix1 n)) = shift n
    have e : S196.rowMajor (ix1 n) = n := Fin.ext (Shape.rowMajor_val_one _)
    rw [e]
    exact lit_eq n

/-! ## The grid -/

theorem point_lt (t : Fin cfg0.N) : t.val < 32 := lt_of_lt_of_eq t.isLt N_0

/-- The batch entry of point `t`. -/
def batchOf (t : Fin cfg0.N) : Fin 16 := ⟨t.val / 2, by have := point_lt t; omega⟩
/-- The channel of the array that channel `c` of point `t`'s block is. -/
def chanOf (h : Nat) (hh : h < 2) (c' : Fin 384) : Fin 768 := ⟨h * 384 + c'.val, by have := c'.isLt; omega⟩

/-- The printed index maps over the grid: the table's block is always the first, the input's and the output's are
    `(t / 2, 0, 0, t mod 2)`. -/
theorem idx_facts : ∀ t : Fin cfg0.N,
    win0_0.index t (0 : Fin 3) = 0 ∧ win0_0.index t (1 : Fin 3) = 0 ∧ win0_0.index t (2 : Fin 3) = 0
    ∧ win0_1.index t (0 : Fin 4) = t.val / 2 ∧ win0_1.index t (1 : Fin 4) = 0 ∧ win0_1.index t (2 : Fin 4) = 0 ∧ win0_1.index t (3 : Fin 4) = t.val % 2
    ∧ win0_2.index t (0 : Fin 4) = t.val / 2 ∧ win0_2.index t (1 : Fin 4) = 0 ∧ win0_2.index t (2 : Fin 4) = 0 ∧ win0_2.index t (3 : Fin 4) = t.val % 2 :=
  (by decide +kernel : ∀ t : Fin grid0.N, _)

/-! ## The windows' blocks -/

/-- The table block at `(0, n, c)` is the shift word of patch `n`. -/
theorem tableBlock (c : Dev nD) (t : Fin cfg0.N) (n : Fin 196) (c' : Fin 384) : iblk m c 0 t (ix3 0 n c') = shift n := by
  show V m c main_v2 (((cfg0.win 0).blk t).view.emb (ix3 0 n c')) = shift n
  obtain ⟨e0, e1, e2, -⟩ := idx_facts t
  have he : ((cfg0.win 0).blk t).view.emb (ix3 0 n c') = ix3 0 n c' := by
    funext a; apply Fin.ext
    match a with
    | ⟨0, _⟩ => show win0_0.index t (0 : Fin 3) * 1 + 1 * 0 = 0; omega
    | ⟨1, _⟩ => show win0_0.index t (1 : Fin 3) * 196 + 1 * n.val = n.val; omega
    | ⟨2, _⟩ => show win0_0.index t (2 : Fin 3) * 384 + 1 * c'.val = c'.val; omega
  rw [he]
  exact table_apply m c n c'

/-- The input block at `(0, r, n, c)` is the array at batch `t / 2`, time `r`, patch `n`, channel `384·(t mod 2) + c`. -/
theorem inputBlock (c : Dev nD) (t : Fin cfg0.N) (r : Fin 16) (n : Fin 196) (c' : Fin 384) :
    iblk m c 1 t (ix4 0 r n c')
      = (V m c main_v0 : S16x16x196x768.Idx → Elt F .f32) (ix4 (batchOf t) r n (chanOf (t.val % 2) (Nat.mod_lt _ (by decide)) c')) := by
  show V m c main_v0 (((cfg0.win 1).blk t).view.emb (ix4 0 r n c')) = _
  obtain ⟨-, -, -, e0, e1, e2, e3, -⟩ := idx_facts t
  congr 1
  funext a; apply Fin.ext
  match a with
  | ⟨0, _⟩ => show win0_1.index t (0 : Fin 4) * 1 + 1 * 0 = t.val / 2; omega
  | ⟨1, _⟩ => show win0_1.index t (1 : Fin 4) * 16 + 1 * r.val = r.val; omega
  | ⟨2, _⟩ => show win0_1.index t (2 : Fin 4) * 196 + 1 * n.val = n.val; omega
  | ⟨3, _⟩ => show win0_1.index t (3 : Fin 4) * 384 + 1 * c'.val = t.val % 2 * 384 + c'.val; omega

/-! ## One point -/

/-- The body's block over a table block of shift words and a block of the array `A` at batch `b`, channel half `h`, is the
    shifted array there: the chain reads the time the patch's shift names. -/
theorem point (A : Vec F S16x16x196x768 .f32) (X0 : Vec F S1x196x384 .i32) (X1 : Vec F S1x16x196x384 .f32) (b : Fin 16) (h : Nat) (hh : h < 2)
    (hX0 : ∀ (n : Fin 196) (c' : Fin 384), X0 (ix3 0 n c') = shift n)
    (hX1 : ∀ (r : Fin 16) (n : Fin 196) (c' : Fin 384), X1 (ix4 0 r n c') = A (ix4 b r n (chanOf h hh c')))
    (y : S1x16x196x384.Idx) :
    blockOut X0 X1 y = rolled A (ix4 b (y 1 : Fin 16) (y 2 : Fin 196) (chanOf h hh (y 3 : Fin 384))) := by
  obtain ⟨r, n, c', rfl⟩ : ∃ (r : Fin 16) (n : Fin 196) (c' : Fin 384), y = ix4 0 r n c' :=
    ⟨y 1, y 2, y 3, by
      funext a
      match a with
      | ⟨0, _⟩ => exact Subsingleton.elim (α := Fin 1) _ _
      | ⟨1, _⟩ => rfl
      | ⟨2, _⟩ => rfl
      | ⟨3, _⟩ => rfl⟩
  show blockOut X0 X1 (ix4 0 r n c') = rolled A (ix4 b r n (chanOf h hh c'))
  rw [blockOut_apply, hX0, pick_eq _ (shift_mem _), hX1, rolled_apply]

/-! ## What a point writes back, and the array after the run -/

/-- WHAT POINT `t` WRITES BACK is block `t` of the shifted array. -/
theorem flushed_eq (c : Dev nD) (t : Fin cfg0.N) :
    (dats m 0 c).flushed 2 t = ((cfg0.win 2).blk t).view.read (Elt F) (rolled (V m c main_v0 : S16x16x196x768.Idx → Elt F .f32)) := by
  show (cfg0.win 2).cut (grid0.coords t) ((dats m 0 c).after 2 t) = _
  rw [after0_2, out_eq]
  funext j
  show blockOut (iblk m c 0 t) (iblk m c 1 t) j = rolled (V m c main_v0 : S16x16x196x768.Idx → Elt F .f32) (((cfg0.win 2).blk t).view.emb j)
  refine (point (V m c main_v0) (iblk m c 0 t) (iblk m c 1 t) (batchOf t) (t.val % 2) (Nat.mod_lt _ (by decide))
    (tableBlock m c t) (inputBlock m c t) j).trans ?_
  obtain ⟨-, -, -, -, -, -, -, e0, e1, e2, e3⟩ := idx_facts t
  congr 1
  funext a; apply Fin.ext
  match a with
  | ⟨0, _⟩ => show t.val / 2 = win0_2.index t (0 : Fin 4) * 1 + 1 * (j 0).val; have hj : (j 0).val < 1 := (j 0).isLt; omega
  | ⟨1, _⟩ => show (j 1).val = win0_2.index t (1 : Fin 4) * 16 + 1 * (j 1).val; omega
  | ⟨2, _⟩ => show (j 2).val = win0_2.index t (2 : Fin 4) * 196 + 1 * (j 2).val; omega
  | ⟨3, _⟩ => show t.val % 2 * 384 + (j 3).val = win0_2.index t (3 : Fin 4) * 384 + 1 * (j 3).val; omega

/-- An index of the array is in point `t`'s block iff each coordinate is in the block's range on its axis. -/
theorem mem_blk (t : Fin cfg0.N) (i : S16x16x196x768.Idx) :
    i ∈ ((cfg0.win 2).blk t).view.set ↔ ∀ a : Fin 4, win0_2.index t a * S1x16x196x384.size a ≤ (i a).val ∧ (i a).val < win0_2.index t a * S1x16x196x384.size a + S1x16x196x384.size a := by
  show i ∈ ((View.whole main_v3).slice (win0_2.rect t)).set ↔ _
  rw [View.set_slice_whole, Rect.mem_set_unit]
  exact Iff.rfl

/-- Every index of the array is in the block of the point of its batch entry and channel half. -/
theorem cover (i : S16x16x196x768.Idx) : ∃ t : Fin cfg0.N, (cfg0.win 2).flush t = true ∧ i ∈ ((cfg0.win 2).blk t).view.set := by
  have h0 : (i 0).val < 16 := (i 0).isLt
  have h1 : (i 1).val < 16 := (i 1).isLt
  have h2 : (i 2).val < 196 := (i 2).isLt
  have h3 : (i 3).val < 768 := (i 3).isLt
  let t : Fin cfg0.N := ⟨(i 0).val * 2 + (i 3).val / 384, lt_of_lt_of_eq (by omega : (i 0).val * 2 + (i 3).val / 384 < 32) N_0.symm⟩
  have ht : t.val = (i 0).val * 2 + (i 3).val / 384 := rfl
  obtain ⟨-, -, -, -, -, -, -, e0, e1, e2, e3⟩ := idx_facts t
  refine ⟨t, flush0_2 t, ?_⟩
  rw [mem_blk]
  intro a
  match a with
  | ⟨0, _⟩ => show win0_2.index t (0 : Fin 4) * 1 ≤ (i 0).val ∧ (i 0).val < win0_2.index t (0 : Fin 4) * 1 + 1; omega
  | ⟨1, _⟩ => show win0_2.index t (1 : Fin 4) * 16 ≤ (i 1).val ∧ (i 1).val < win0_2.index t (1 : Fin 4) * 16 + 16; omega
  | ⟨2, _⟩ => show win0_2.index t (2 : Fin 4) * 196 ≤ (i 2).val ∧ (i 2).val < win0_2.index t (2 : Fin 4) * 196 + 196; omega
  | ⟨3, _⟩ => show win0_2.index t (3 : Fin 4) * 384 ≤ (i 3).val ∧ (i 3).val < win0_2.index t (3 : Fin 4) * 384 + 384; omega

/-- THE OUTPUT ARRAY after the run is the shifted input array. -/
theorem final (c : Dev nD) : (dats m 0 c).arrAt 2 cfg0.N = rolled (V m c main_v0 : S16x16x196x768.Idx → Elt F .f32) :=
  (dats m 0 c).arrAt_eq_of_cover 2 _ (fun t _ => flushed_eq m c t) (cover)

end Cert.PatchShift.Kernel

end
-- ==== Proof.KRun.lean ====
/-
  The kernel's program, run: the array the region leaves, with its patch grid restored, is the specification's result.

  Before the region the program flattens the patch grid of its argument and lays out the table; the region leaves the
  shifted flattened array in its output array; after the region one reshape restores the patch grid. So the program's
  result is: flatten, shift, restore.
-/
import proofs.«403649_j62474594287749_3_alg».proof.Proof.Blocks

set_option maxRecDepth 16384

noncomputable section

open Idealize.ShloMosaic Idealize.ShloMosaic.ValueIdx Idealize.ShloMosaic.TcCoe Idealize.SL.Sem Idealize.ShloMosaic.StableHlo
open Cert.KernelIdeal Cert.KernelIdeal.Gen Cert.PatchShift
open Idealize.ShloMosaic.Pipeline (Dat Cfg Window)

namespace Cert.PatchShift.Kernel

variable {F : FTy → Type} [FloatOps F]
variable (m : (ℓ : Loc nD τ sig) → Buf (Elt F) ℓ) (ρ : Dev nD → PrngReg)

/-- What the reshape after the region leaves in the result: the output array with its patch grid restored. -/
theorem tail_eq (c : Dev nD) :
    Pipeline.afterTail₀ cfgs (dats m) 0 (V0 m) [hostOps1] c main_v4
      = G shapeCasts_S16x16x14x14x768_S16x16x196x768 shapeCasts_S16x16x196x768_S16x16x14x14x768
          (m ((c : Thread nD τ).loc main_arg0)) := by
  unfold Pipeline.afterTail₀
  show StableHlo.after hostOps1 _ (Proc.devRef .tc main_v4) = _
  after_results
  have h3 : Pipeline.withArrays (cfgs 0).spec c (V0 m c) (fun w => (dats m 0 c).arrAt w (cfgs 0).N) (Proc.devRef .tc main_v3)
      = rolled (V m c main_v0 : S16x16x196x768.Idx → Elt F .f32) :=
    (Pipeline.withArrays_arr spec0 launch0.win.arr_inj c _ _ 2).trans (final m c)
  rw [h3, V_v0]
  rfl

/-- THE KERNEL'S RUN: every weakly fair execution terminates with the result array at the specification's function of the
    argument array, and the argument array unchanged. -/
theorem run : θ_run defs (onTc (τ := τ) (main (F := F))) ⟨m, fun _ => 0, ρ⟩ (fun r => ∀ c : Dev nD,
      r.2.mem ((c.tc : Thread nD τ).loc main_v4)
          = G shapeCasts_S16x16x14x14x768_S16x16x196x768 shapeCasts_S16x16x196x768_S16x16x14x14x768
              (m ((c.tc : Thread nD τ).loc main_arg0))
      ∧ r.2.mem ((c.tc : Thread nD τ).loc main_arg0) = m ((c.tc : Thread nD τ).loc main_arg0)) :=
  (θ_run defs _ _).mono (fun _ h c =>
      ⟨((h c).2 main_v4 (Pipeline.mem_restRefs_of main_v4 (by decide) (by decide))).trans (tail_eq m c),
       ((h c).2 main_arg0 (Pipeline.mem_restRefs_of main_arg0 (by decide) (by decide))).trans (W_main_arg0 m (dats m) c)⟩)
    (run_main m ρ)

end Cert.PatchShift.Kernel

end
-- ==== Proof.RefRun.lean ====
/-
  The reference program's run, by hand.

  The printed reference computes, for every time t and patch n, the two components of a start index —
  the time (t − s(n)) mod 16 (a signed remainder by 16 corrected to the divisor's sign, then wrapped once more into
  [0, 16)), and the patch n itself (wrapped into [0, 196), which never fires) —, joins the two planes along a last
  axis of length two, gathers the flattened array at those start indices and restores the patch grid.

  Here that straight line of operations is listed once (the two outlined functions, the remainder and the selection it
  calls, written at their call sites over the call's own buffers), the program is shown to be that list, and the list's
  fold is read at the result buffer as ONE named term of the argument array, "refTerm".
-/
import proofs.«403649_j62474594287749_3_alg».proof.Proof.Gen.ReferenceIdeal
import proofs.«403649_j62474594287749_3_alg».proof.Proof.Spec
import Idealize.ShloMosaic.Lib.StableHlo.Run

noncomputable section

namespace Cert.PatchShift.Ref

open Cert.ReferenceIdeal Cert.ReferenceIdeal.Gen Idealize.ShloMosaic Idealize.ShloMosaic.TcCoe Idealize.SL.Sem
  Idealize.ShloMosaic.StableHlo

variable {F : FTy → Type} [FloatOps F]

/-! ## The index planes and the result, as terms -/

/-- The table of shift words, one per patch. -/
def table : IVec S196 32 := fun i => lit0 (S196.rowMajor i)

/-- t − s(n), as 32-bit words, over the plane of times and patches. -/
def diff : IVec S16x196 32 :=
  subi (broadcastInDim S16x196 ![0, 1] bcast_S16x1_S16x196_0_1 (broadcastInDim S16x1 ![0] bcast_S16_S16x1_0 (iotaInDim S16 32 0)))
    (broadcastInDim S16x196 ![0, 1] bcast_S1x196_S16x196_0_1 (broadcastInDim S1x196 ![1] bcast_S196_S1x196_1 table))

/-- The divisor the remainder is taken by: 16, or 1 were it zero. -/
def divisor : IVec S_ 32 :=
  select (cmpi .eq (id (constantI S_ 32 16#32)) (constantI S_ 32 0#32)) (constantI S_ 32 1#32) (id (constantI S_ 32 16#32))

/-- The signed remainder of t − s(n) by the divisor: it has the dividend's sign. -/
def rem : IVec S16x196 32 := Host.remsi diff (broadcastInDim S16x196 ![] bcast_S_S16x196 divisor)

/-- The remainder moved to the divisor's sign: where it is not zero and its sign differs from the divisor's, the
    divisor is added. -/
def modulo : IVec S16x196 32 :=
  select
    (andi
      (cmpi .ne (cmpi .slt rem (broadcastInDim S16x196 ![] bcast_S_S16x196 (constantI S_ 32 0#32)))
        (broadcastInDim S16x196 ![] bcast_S_S16x196 (cmpi .slt divisor (constantI S_ 32 0#32))))
      (cmpi .ne rem (broadcastInDim S16x196 ![] bcast_S_S16x196 (constantI S_ 32 0#32))))
    (addi rem (broadcastInDim S16x196 ![] bcast_S_S16x196 divisor))
    rem

/-- The time component of the start index: the modulus, with 16 added where it is negative. -/
def timeIdx : IVec S16x196 32 :=
  select (cmpi .slt modulo (broadcastInDim S16x196 ![] bcast_S_S16x196 (constantI S_ 32 0#32)))
    (addi modulo (broadcastInDim S16x196 ![] bcast_S_S16x196 (constantI S_ 32 16#32)))
    modulo

/-- The patch numbers as a row. -/
def patchRow : IVec S1x196 32 := broadcastInDim S1x196 ![1] bcast_S196_S1x196_1 (iotaInDim S196 32 0)

/-- The patch component of the start index: the patch number, with 196 added where it is negative, over the plane. -/
def patchIdx : IVec S16x196 32 :=
  broadcastInDim S16x196 ![0, 1] bcast_S1x196_S16x196_0_1
    (select (cmpi .slt patchRow (broadcastInDim S1x196 ![] bcast_S_S1x196 (constantI S_ 32 0#32)))
      (addi patchRow (broadcastInDim S1x196 ![] bcast_S_S1x196 (constantI S_ 32 196#32)))
      patchRow)

/-- The start indices: the two planes side by side along a last axis of length two. -/
def startIdx : IVec S16x196x2 32 :=
  concatenate S16x196x2 2
    [⟨S16x196x1, broadcastInDim S16x196x1 ![0, 1] bcast_S16x196_S16x196x1_0_1 timeIdx⟩,
     ⟨S16x196x1, broadcastInDim S16x196x1 ![0, 1] bcast_S16x196_S16x196x1_0_1 patchIdx⟩]
    concatenates_S16x196x1_S16x196x1_S16x196x2_d2

/-- The gather over the flattened array. -/
def gathered {α : Type} (y : S16x16x196x768.Idx → α) : S16x16x196x768.Idx → α :=
  Host.gather gather_S16x16x196x768_S16x196x2_S16x16x196x768_03_12_n_n_12_2_1611768 y startIdx

/-- THE REFERENCE'S RESULT as one function of the argument array: flatten the patch grid, gather, restore the grid. -/
def refTerm {α : Type} (x : S16x16x14x14x768.Idx → α) : S16x16x14x14x768.Idx → α :=
  shapeCast S16x16x14x14x768 (gathered (shapeCast S16x16x196x768 x shapeCasts_S16x16x14x14x768_S16x16x196x768))
    shapeCasts_S16x16x196x768_S16x16x14x14x768

/-! ## The program as a list of operations -/

/-- @main's operations in order, the remainder's twenty (and, inside it, the selection's one) at the call site over
    the call's buffers. -/
abbrev ops : List (HloOp τ sig (Elt F)) :=
  [ nullary main_c (fun i => lit0 (S196.rowMajor i)),
    reshape main_arg0 main_v0 rfl shapeCasts_S16x16x14x14x768_S16x16x196x768,
    nullary main_v1 (iotaInDim S16 32 0),
    unary main_v1 main_v2 (broadcastInDim S16x1 ![0] bcast_S16_S16x1_0 : (⟨S16, .i32⟩ : BufTy).Contents (Elt F) → (⟨S16x1, .i32⟩ : BufTy).Contents (Elt F)),
    unary main_c main_v3 (broadcastInDim S1x196 ![1] bcast_S196_S1x196_1 : (⟨S196, .i32⟩ : BufTy).Contents (Elt F) → (⟨S1x196, .i32⟩ : BufTy).Contents (Elt F)),
    unary main_v2 main_v4 (broadcastInDim S16x196 ![0, 1] bcast_S16x1_S16x196_0_1 : (⟨S16x1, .i32⟩ : BufTy).Contents (Elt F) → (⟨S16x196, .i32⟩ : BufTy).Contents (Elt F)),
    unary main_v3 main_v5 (broadcastInDim S16x196 ![0, 1] bcast_S1x196_S16x196_0_1 : (⟨S1x196, .i32⟩ : BufTy).Contents (Elt F) → (⟨S16x196, .i32⟩ : BufTy).Contents (Elt F)),
    binary main_v4 main_v5 main_v6 (subi : (⟨S16x196, .i32⟩ : BufTy).Contents (Elt F) → (⟨S16x196, .i32⟩ : BufTy).Contents (Elt F) → (⟨S16x196, .i32⟩ : BufTy).Contents (Elt F)),
    nullary main_c_0 (constantI S_ 32 16#32),
    TRef.unary (.of main_c_0) main_call0.v0 id,
    TRef.nullary main_call0.c (constantI S_ 32 0#32),
    TRef.binary main_call0.v0 main_call0.c main_call0.v1 (cmpi .eq),
    TRef.nullary main_call0.c_0 (constantI S_ 32 1#32),
    TRef.ternary main_call0.v1 main_call0.c_0 main_call0.v0 main_call0.call0.v0 select,
    TRef.unary main_call0.call0.v0 main_call0.v3 (broadcastInDim S16x196 ![] bcast_S_S16x196),
    TRef.binary (.of main_v6) main_call0.v3 main_call0.v4 Host.remsi,
    TRef.nullary main_call0.c_1 (constantI S_ 32 0#32),
    TRef.unary main_call0.c_1 main_call0.v5 (broadcastInDim S16x196 ![] bcast_S_S16x196),
    TRef.binary main_call0.v4 main_call0.v5 main_call0.v6 (cmpi .ne),
    TRef.nullary main_call0.c_2 (constantI S_ 32 0#32),
    TRef.unary main_call0.c_2 main_call0.v7 (broadcastInDim S16x196 ![] bcast_S_S16x196),
    TRef.binary main_call0.v4 main_call0.v7 main_call0.v8 (cmpi .slt),
    TRef.nullary main_call0.c_3 (constantI S_ 32 0#32),
    TRef.binary main_call0.call0.v0 main_call0.c_3 main_call0.v9 (cmpi .slt),
    TRef.unary main_call0.v9 main_call0.v10 (broadcastInDim S16x196 ![] bcast_S_S16x196),
    TRef.binary main_call0.v8 main_call0.v10 main_call0.v11 (cmpi .ne),
    TRef.binary main_call0.v11 main_call0.v6 main_call0.v12 andi,
    TRef.unary main_call0.call0.v0 main_call0.v13 (broadcastInDim S16x196 ![] bcast_S_S16x196),
    TRef.binary main_call0.v4 main_call0.v13 main_call0.v14 addi,
    TRef.ternary main_call0.v12 main_call0.v14 main_call0.v4 main_call0.v15 select,
    nullary main_v8 (iotaInDim S196 32 0),
    unary main_v8 main_v9 (broadcastInDim S1x196 ![1] bcast_S196_S1x196_1 : (⟨S196, .i32⟩ : BufTy).Contents (Elt F) → (⟨S1x196, .i32⟩ : BufTy).Contents (Elt F)),
    nullary main_c_1 (constantI S_ 32 0#32),
    unary main_c_1 main_v10 (broadcastInDim S16x196 ![] bcast_S_S16x196 : (⟨S_, .i32⟩ : BufTy).Contents (Elt F) → (⟨S16x196, .i32⟩ : BufTy).Contents (Elt F)),
    binary main_v7 main_v10 main_v11 (cmpi .slt : (⟨S16x196, .i32⟩ : BufTy).Contents (Elt F) → (⟨S16x196, .i32⟩ : BufTy).Contents (Elt F) → (⟨S16x196, .i1⟩ : BufTy).Contents (Elt F)),
    nullary main_c_2 (constantI S_ 32 16#32),
    unary main_c_2 main_v12 (broadcastInDim S16x196 ![] bcast_S_S16x196 : (⟨S_, .i32⟩ : BufTy).Contents (Elt F) → (⟨S16x196, .i32⟩ : BufTy).Contents (Elt F)),
    binary main_v7 main_v12 main_v13 (addi : (⟨S16x196, .i32⟩ : BufTy).Contents (Elt F) → (⟨S16x196, .i32⟩ : BufTy).Contents (Elt F) → (⟨S16x196, .i32⟩ : BufTy).Contents (Elt F)),
    ternary main_v11 main_v13 main_v7 main_v14 (select : (⟨S16x196, .i1⟩ : BufTy).Contents (Elt F) → (⟨S16x196, .i32⟩ : BufTy).Contents (Elt F) → (⟨S16x196, .i32⟩ : BufTy).Contents (Elt F) → (⟨S16x196, .i32⟩ : BufTy).Contents (Elt F)),
    nullary main_c_3 (constantI S_ 32 0#32),
    unary main_c_3 main_v15 (broadcastInDim S1x196 ![] bcast_S_S1x196 : (⟨S_, .i32⟩ : BufTy).Contents (Elt F) → (⟨S1x196, .i32⟩ : BufTy).Contents (Elt F)),
    binary main_v9 main_v15 main_v16 (cmpi .slt : (⟨S1x196, .i32⟩ : BufTy).Contents (Elt F) → (⟨S1x196, .i32⟩ : BufTy).Contents (Elt F) → (⟨S1x196, .i1⟩ : BufTy).Contents (Elt F)),
    nullary main_c_4 (constantI S_ 32 196#32),
    unary main_c_4 main_v17 (broadcastInDim S1x196 ![] bcast_S_S1x196 : (⟨S_, .i32⟩ : BufTy).Contents (Elt F) → (⟨S1x196, .i32⟩ : BufTy).Contents (Elt F)),
    binary main_v9 main_v17 main_v18 (addi : (⟨S1x196, .i32⟩ : BufTy).Contents (Elt F) → (⟨S1x196, .i32⟩ : BufTy).Contents (Elt F) → (⟨S1x196, .i32⟩ : BufTy).Contents (Elt F)),
    ternary main_v16 main_v18 main_v9 main_v19 (select : (⟨S1x196, .i1⟩ : BufTy).Contents (Elt F) → (⟨S1x196, .i32⟩ : BufTy).Contents (Elt F) → (⟨S1x196, .i32⟩ : BufTy).Contents (Elt F) → (⟨S1x196, .i32⟩ : BufTy).Contents (Elt F)),
    unary main_v19 main_v20 (broadcastInDim S16x196 ![0, 1] bcast_S1x196_S16x196_0_1 : (⟨S1x196, .i32⟩ : BufTy).Contents (Elt F) → (⟨S16x196, .i32⟩ : BufTy).Contents (Elt F)),
    unary main_v14 main_v21 (broadcastInDim S16x196x1 ![0, 1] bcast_S16x196_S16x196x1_0_1 : (⟨S16x196, .i32⟩ : BufTy).Contents (Elt F) → (⟨S16x196x1, .i32⟩ : BufTy).Contents (Elt F)),
    unary main_v20 main_v22 (broadcastInDim S16x196x1 ![0, 1] bcast_S16x196_S16x196x1_0_1 : (⟨S16x196, .i32⟩ : BufTy).Contents (Elt F) → (⟨S16x196x1, .i32⟩ : BufTy).Contents (Elt F)),
    binary main_v21 main_v22 main_v23 ((fun a b => concatenate S16x196x2 2 [⟨S16x196x1, a⟩, ⟨S16x196x1, b⟩] concatenates_S16x196x1_S16x196x1_S16x196x2_d2) : (⟨S16x196x1, .i32⟩ : BufTy).Contents (Elt F) → (⟨S16x196x1, .i32⟩ : BufTy).Contents (Elt F) → (⟨S16x196x2, .i32⟩ : BufTy).Contents (Elt F)),
    binary main_v0 main_v23 main_v24 ((fun x i => Host.gather gather_S16x16x196x768_S16x196x2_S16x16x196x768_03_12_n_n_12_2_1611768 x i) : (⟨S16x16x196x768, .f32⟩ : BufTy).Contents (Elt F) → (⟨S16x196x2, .i32⟩ : BufTy).Contents (Elt F) → (⟨S16x16x196x768, .f32⟩ : BufTy).Contents (Elt F)),
    reshape main_v24 main_v25 rfl shapeCasts_S16x16x196x768_S16x16x14x14x768 ]

-- fifty-two binds re-associated: the rewrite under the chain recurses once per statement
set_option maxRecDepth 2048 in
/-- @main is that straight line: the two functions' definitions unfolded at their calls, and sequencing
    re-associated, leave one chain of steps on both sides. -/
theorem main_eq (c : Dev nD) : main (F := F) c = seq ops := by
  simp only [main, fn_remainder.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., reshape_bufs_sub .., nullary_bufs_sub .., unary_bufs_sub .., unary_bufs_sub .., unary_bufs_sub ..,
    unary_bufs_sub .., binary_bufs_sub .., nullary_bufs_sub ..,
    unary_bufs_sub .., nullary_bufs_sub .., binary_bufs_sub .., nullary_bufs_sub .., ternary_bufs_sub .., unary_bufs_sub ..,
    binary_bufs_sub .., nullary_bufs_sub .., unary_bufs_sub .., binary_bufs_sub .., nullary_bufs_sub .., unary_bufs_sub ..,
    binary_bufs_sub .., nullary_bufs_sub .., binary_bufs_sub .., unary_bufs_sub .., binary_bufs_sub .., binary_bufs_sub ..,
    unary_bufs_sub .., binary_bufs_sub .., ternary_bufs_sub ..,
    nullary_bufs_sub .., unary_bufs_sub .., nullary_bufs_sub .., unary_bufs_sub .., binary_bufs_sub .., nullary_bufs_sub ..,
    unary_bufs_sub .., binary_bufs_sub .., ternary_bufs_sub .., nullary_bufs_sub .., unary_bufs_sub .., binary_bufs_sub ..,
    nullary_bufs_sub .., unary_bufs_sub .., binary_bufs_sub .., ternary_bufs_sub .., unary_bufs_sub .., unary_bufs_sub ..,
    unary_bufs_sub .., binary_bufs_sub .., binary_bufs_sub .., reshape_bufs_sub ..⟩

/-- From any memory with zero counters every weakly fair execution of @main terminates, each buffer at the list's fold
    over the launch contents. -/
theorem run_after (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc),
        r.2.mem ((c.tc : Thread nD τ).loc b) = after ops (launchContents m c) (b : DevRef τ sig) :=
  run_seq scopedRefs_eq scopedSems_eq defs main (fun _ => ops) main_eq (fun _ => ops_sub) m ρ

end Cert.PatchShift.Ref

end
-- ==== Proof.RefRead.lean ====
/-
  The reference's list of operations read at its result buffer, in three stages.

  The list is cut at the two ends of the remainder: what comes before it (the table, the flattened array, the
  differences t − s(n), the constant 16), the remainder itself, and what comes after (the wrap, the patch plane, the
  start indices, the gather, the restored grid). Each stage is read from an ARBITRARY valuation at the few buffers the
  next stage reads, as a function of the few buffers it reads itself; chained, the three readings give the whole list's
  fold at the result buffer as "refTerm" of the argument.
-/
import proofs.«403649_j62474594287749_3_alg».proof.Proof.RefRun

noncomputable section

namespace Cert.PatchShift.Ref

open Cert.ReferenceIdeal Cert.ReferenceIdeal.Gen Idealize.ShloMosaic Idealize.ShloMosaic.TcCoe Idealize.SL.Sem
  Idealize.ShloMosaic.StableHlo

variable {F : FTy → Type} [FloatOps F]

/-! ## The remainder and the start indices as functions of what they read -/

/-- The divisor from the constant the remainder is called with. -/
def divisorOf (c : IVec S_ 32) : IVec S_ 32 :=
  select (cmpi .eq (id c) (constantI S_ 32 0#32)) (constantI S_ 32 1#32) (id c)

/-- The signed remainder of a plane of words by that divisor. -/
def remOf (x : IVec S16x196 32) (c : IVec S_ 32) : IVec S16x196 32 :=
  Host.remsi x (broadcastInDim S16x196 ![] bcast_S_S16x196 (divisorOf c))

/-- The remainder moved to the divisor's sign. -/
def moduloOf (x : IVec S16x196 32) (c : IVec S_ 32) : IVec S16x196 32 :=
  select
    (andi
      (cmpi .ne (cmpi .slt (remOf x c) (broadcastInDim S16x196 ![] bcast_S_S16x196 (constantI S_ 32 0#32)))
        (broadcastInDim S16x196 ![] bcast_S_S16x196 (cmpi .slt (divisorOf c) (constantI S_ 32 0#32))))
      (cmpi .ne (remOf x c) (broadcastInDim S16x196 ![] bcast_S_S16x196 (constantI S_ 32 0#32))))
    (addi (remOf x c) (broadcastInDim S16x196 ![] bcast_S_S16x196 (divisorOf c)))
    (remOf x c)

/-- The start indices from the plane of moduli: its wrap into [0, 16) beside the patch plane. -/
def startIdxOf (m : IVec S16x196 32) : IVec S16x196x2 32 :=
  concatenate S16x196x2 2
    [⟨S16x196x1, broadcastInDim S16x196x1 ![0, 1] bcast_S16x196_S16x196x1_0_1
        (select (cmpi .slt m (broadcastInDim S16x196 ![] bcast_S_S16x196 (constantI S_ 32 0#32)))
          (addi m (broadcastInDim S16x196 ![] bcast_S_S16x196 (constantI S_ 32 16#32)))
          m)⟩,
     ⟨S16x196x1, broadcastInDim S16x196x1 ![0, 1] bcast_S16x196_S16x196x1_0_1 patchIdx⟩]
    concatenates_S16x196x1_S16x196x1_S16x196x2_d2

/-- The plane of moduli is the remainder of the differences by 16 … -/
theorem modulo_eq : modulo = moduloOf diff (constantI S_ 32 16#32) := rfl
/-- … and the start indices are read off it. -/
theorem startIdx_eq : startIdx = startIdxOf modulo := rfl

/-! ## The list in three stages -/

/-- The operations before the remainder: the table of shifts, the flattened array, t − s(n), and the constant 16. -/
abbrev opsA : List (HloOp τ sig (Elt F)) :=
  [ nullary main_c table,
    reshape main_arg0 main_v0 rfl shapeCasts_S16x16x14x14x768_S16x16x196x768,
    nullary main_v1 (iotaInDim S16 32 0),
    unary main_v1 main_v2 (broadcastInDim S16x1 ![0] bcast_S16_S16x1_0 : (⟨S16, .i32⟩ : BufTy).Contents (Elt F) → (⟨S16x1, .i32⟩ : BufTy).Contents (Elt F)),
    unary main_c main_v3 (broadcastInDim S1x196 ![1] bcast_S196_S1x196_1 : (⟨S196, .i32⟩ : BufTy).Contents (Elt F) → (⟨S1x196, .i32⟩ : BufTy).Contents (Elt F)),
    unary main_v2 main_v4 (broadcastInDim S16x196 ![0, 1] bcast_S16x1_S16x196_0_1 : (⟨S16x1, .i32⟩ : BufTy).Contents (Elt F) → (⟨S16x196, .i32⟩ : BufTy).Contents (Elt F)),
    unary main_v3 main_v5 (broadcastInDim S16x196 ![0, 1] bcast_S1x196_S16x196_0_1 : (⟨S1x196, .i32⟩ : BufTy).Contents (Elt F) → (⟨S16x196, .i32⟩ : BufTy).Contents (Elt F)),
    binary main_v4 main_v5 main_v6 (subi : (⟨S16x196, .i32⟩ : BufTy).Contents (Elt F) → (⟨S16x196, .i32⟩ : BufTy).Contents (Elt F) → (⟨S16x196, .i32⟩ : BufTy).Contents (Elt F)),
    nullary main_c_0 (constantI S_ 32 16#32) ]

/-- The remainder's operations, over its call's buffers. -/
abbrev opsB : List (HloOp τ sig (Elt F)) :=
  [ TRef.unary (.of main_c_0) main_call0.v0 id,
    TRef.nullary main_call0.c (constantI S_ 32 0#32),
    TRef.binary main_call0.v0 main_call0.c main_call0.v1 (cmpi .eq),
    TRef.nullary main_call0.c_0 (constantI S_ 32 1#32),
    TRef.ternary main_call0.v1 main_call0.c_0 main_call0.v0 main_call0.call0.v0 select,
    TRef.unary main_call0.call0.v0 main_call0.v3 (broadcastInDim S16x196 ![] bcast_S_S16x196),
    TRef.binary (.of main_v6) main_call0.v3 main_call0.v4 Host.remsi,
    TRef.nullary main_call0.c_1 (constantI S_ 32 0#32),
    TRef.unary main_call0.c_1 main_call0.v5 (broadcastInDim S16x196 ![] bcast_S_S16x196),
    TRef.binary main_call0.v4 main_call0.v5 main_call0.v6 (cmpi .ne),
    TRef.nullary main_call0.c_2 (constantI S_ 32 0#32),
    TRef.unary main_call0.c_2 main_call0.v7 (broadcastInDim S16x196 ![] bcast_S_S16x196),
    TRef.binary main_call0.v4 main_call0.v7 main_call0.v8 (cmpi .slt),
    TRef.nullary main_call0.c_3 (constantI S_ 32 0#32),
    TRef.binary main_call0.call0.v0 main_call0.c_3 main_call0.v9 (cmpi .slt),
    TRef.unary main_call0.v9 main_call0.v10 (broadcastInDim S16x196 ![] bcast_S_S16x196),
    TRef.binary main_call0.v8 main_call0.v10 main_call0.v11 (cmpi .ne),
    TRef.binary main_call0.v11 main_call0.v6 main_call0.v12 andi,
    TRef.unary main_call0.call0.v0 main_call0.v13 (broadcastInDim S16x196 ![] bcast_S_S16x196),
    TRef.binary main_call0.v4 main_call0.v13 main_call0.v14 addi,
    TRef.ternary main_call0.v12 main_call0.v14 main_call0.v4 main_call0.v15 select ]

/-- The operations after the remainder: the wrap into [0, 16), the patch plane, the start indices, the gather and the restored grid. -/
abbrev opsC : List (HloOp τ sig (Elt F)) :=
  [ nullary main_v8 (iotaInDim S196 32 0),
    unary main_v8 main_v9 (broadcastInDim S1x196 ![1] bcast_S196_S1x196_1 : (⟨S196, .i32⟩ : BufTy).Contents (Elt F) → (⟨S1x196, .i32⟩ : BufTy).Contents (Elt F)),
    nullary main_c_1 (constantI S_ 32 0#32),
    unary main_c_1 main_v10 (broadcastInDim S16x196 ![] bcast_S_S16x196 : (⟨S_, .i32⟩ : BufTy).Contents (Elt F) → (⟨S16x196, .i32⟩ : BufTy).Contents (Elt F)),
    binary main_v7 main_v10 main_v11 (cmpi .slt : (⟨S16x196, .i32⟩ : BufTy).Contents (Elt F) → (⟨S16x196, .i32⟩ : BufTy).Contents (Elt F) → (⟨S16x196, .i1⟩ : BufTy).Contents (Elt F)),
    nullary main_c_2 (constantI S_ 32 16#32),
    unary main_c_2 main_v12 (broadcastInDim S16x196 ![] bcast_S_S16x196 : (⟨S_, .i32⟩ : BufTy).Contents (Elt F) → (⟨S16x196, .i32⟩ : BufTy).Contents (Elt F)),
    binary main_v7 main_v12 main_v13 (addi : (⟨S16x196, .i32⟩ : BufTy).Contents (Elt F) → (⟨S16x196, .i32⟩ : BufTy).Contents (Elt F) → (⟨S16x196, .i32⟩ : BufTy).Contents (Elt F)),
    ternary main_v11 main_v13 main_v7 main_v14 (select : (⟨S16x196, .i1⟩ : BufTy).Contents (Elt F) → (⟨S16x196, .i32⟩ : BufTy).Contents (Elt F) → (⟨S16x196, .i32⟩ : BufTy).Contents (Elt F) → (⟨S16x196, .i32⟩ : BufTy).Contents (Elt F)),
    nullary main_c_3 (constantI S_ 32 0#32),
    unary main_c_3 main_v15 (broadcastInDim S1x196 ![] bcast_S_S1x196 : (⟨S_, .i32⟩ : BufTy).Contents (Elt F) → (⟨S1x196, .i32⟩ : BufTy).Contents (Elt F)),
    binary main_v9 main_v15 main_v16 (cmpi .slt : (⟨S1x196, .i32⟩ : BufTy).Contents (Elt F) → (⟨S1x196, .i32⟩ : BufTy).Contents (Elt F) → (⟨S1x196, .i1⟩ : BufTy).Contents (Elt F)),
    nullary main_c_4 (constantI S_ 32 196#32),
    unary main_c_4 main_v17 (broadcastInDim S1x196 ![] bcast_S_S1x196 : (⟨S_, .i32⟩ : BufTy).Contents (Elt F) → (⟨S1x196, .i32⟩ : BufTy).Contents (Elt F)),
    binary main_v9 main_v17 main_v18 (addi : (⟨S1x196, .i32⟩ : BufTy).Contents (Elt F) → (⟨S1x196, .i32⟩ : BufTy).Contents (Elt F) → (⟨S1x196, .i32⟩ : BufTy).Contents (Elt F)),
    ternary main_v16 main_v18 main_v9 main_v19 (select : (⟨S1x196, .i1⟩ : BufTy).Contents (Elt F) → (⟨S1x196, .i32⟩ : BufTy).Contents (Elt F) → (⟨S1x196, .i32⟩ : BufTy).Contents (Elt F) → (⟨S1x196, .i32⟩ : BufTy).Contents (Elt F)),
    unary main_v19 main_v20 (broadcastInDim S16x196 ![0, 1] bcast_S1x196_S16x196_0_1 : (⟨S1x196, .i32⟩ : BufTy).Contents (Elt F) → (⟨S16x196, .i32⟩ : BufTy).Contents (Elt F)),
    unary main_v14 main_v21 (broadcastInDim S16x196x1 ![0, 1] bcast_S16x196_S16x196x1_0_1 : (⟨S16x196, .i32⟩ : BufTy).Contents (Elt F) → (⟨S16x196x1, .i32⟩ : BufTy).Contents (Elt F)),
    unary main_v20 main_v22 (broadcastInDim S16x196x1 ![0, 1] bcast_S16x196_S16x196x1_0_1 : (⟨S16x196, .i32⟩ : BufTy).Contents (Elt F) → (⟨S16x196x1, .i32⟩ : BufTy).Contents (Elt F)),
    binary main_v21 main_v22 main_v23 ((fun a b => concatenate S16x196x2 2 [⟨S16x196x1, a⟩, ⟨S16x196x1, b⟩] concatenates_S16x196x1_S16x196x1_S16x196x2_d2) : (⟨S16x196x1, .i32⟩ : BufTy).Contents (Elt F) → (⟨S16x196x1, .i32⟩ : BufTy).Contents (Elt F) → (⟨S16x196x2, .i32⟩ : BufTy).Contents (Elt F)),
    binary main_v0 main_v23 main_v24 ((fun x i => Host.gather gather_S16x16x196x768_S16x196x2_S16x16x196x768_03_12_n_n_12_2_1611768 x i) : (⟨S16x16x196x768, .f32⟩ : BufTy).Contents (Elt F) → (⟨S16x196x2, .i32⟩ : BufTy).Contents (Elt F) → (⟨S16x16x196x768, .f32⟩ : BufTy).Contents (Elt F)),
    reshape main_v24 main_v25 rfl shapeCasts_S16x16x196x768_S16x16x14x14x768 ]

/-- The list is the three stages one after the other (the table is the literal's own function). -/
theorem ops_eq : (ops : List (HloOp τ sig (Elt F))) = opsA ++ (opsB ++ opsC) := rfl

/-- Two lines run one after the other fold as the second over the first's fold. -/
theorem after_append (A B : List (HloOp τ sig (Elt F))) (V : Valuation τ sig (Elt F)) :
    after (A ++ B) V = after B (after A V) := by
  induction A generalizing V with
  | nil => rfl
  | cons op A ih => simp only [List.cons_append, after_cons, ih]

/-! ## Stage one: before the remainder -/

theorem stageA_v6 (V : Valuation τ sig (Elt F)) : after opsA V (main_v6 : DevRef τ sig) = diff := by
  after_results
  rfl
theorem stageA_c0 (V : Valuation τ sig (Elt F)) : after opsA V (main_c_0 : DevRef τ sig) = constantI S_ 32 16#32 := by
  after_results
theorem stageA_v0 (V : Valuation τ sig (Elt F)) :
    after opsA V (main_v0 : DevRef τ sig)
      = shapeCast S16x16x196x768 (V (main_arg0 : DevRef τ sig)) shapeCasts_S16x16x14x14x768_S16x16x196x768 := by
  after_results
  rfl
theorem stageA_arg0 (V : Valuation τ sig (Elt F)) :
    after opsA V (main_arg0 : DevRef τ sig) = V (main_arg0 : DevRef τ sig) := by
  after_results

/-! ## Stage two: the remainder -/

set_option maxHeartbeats 1000000 in
theorem stageB_v7 (W : Valuation τ sig (Elt F)) :
    after opsB W (main_v7 : DevRef τ sig) = moduloOf (W (main_v6 : DevRef τ sig)) (W (main_c_0 : DevRef τ sig)) := by
  after_results
  rfl
theorem stageB_v0 (W : Valuation τ sig (Elt F)) :
    after opsB W (main_v0 : DevRef τ sig) = W (main_v0 : DevRef τ sig) := by
  after_results
theorem stageB_arg0 (W : Valuation τ sig (Elt F)) :
    after opsB W (main_arg0 : DevRef τ sig) = W (main_arg0 : DevRef τ sig) := by
  after_results

/-! ## Stage three: after the remainder -/

set_option maxHeartbeats 1000000 in
theorem stageC_v25 (W : Valuation τ sig (Elt F)) :
    after opsC W (main_v25 : DevRef τ sig)
      = shapeCast S16x16x14x14x768
          (Host.gather gather_S16x16x196x768_S16x196x2_S16x16x196x768_03_12_n_n_12_2_1611768
            (W (main_v0 : DevRef τ sig)) (startIdxOf (W (main_v7 : DevRef τ sig))))
          shapeCasts_S16x16x196x768_S16x16x14x14x768 := by
  after_results
  rfl
theorem stageC_arg0 (W : Valuation τ sig (Elt F)) :
    after opsC W (main_arg0 : DevRef τ sig) = W (main_arg0 : DevRef τ sig) := by
  after_results

/-! ## The whole list -/

/-- The fold at the result buffer is "refTerm" of the argument's contents. -/
theorem out_eq (V : Valuation τ sig (Elt F)) :
    after ops V (main_v25 : DevRef τ sig) = refTerm (V (main_arg0 : DevRef τ sig)) := by
  rw [ops_eq, after_append, after_append, stageC_v25, stageB_v0, stageB_v7, stageA_v0, stageA_v6, stageA_c0,
    ← modulo_eq, ← startIdx_eq]
  rfl

/-- No operation writes the argument. -/
theorem arg0_eq (V : Valuation τ sig (Elt F)) :
    after ops V (main_arg0 : DevRef τ sig) = V (main_arg0 : DevRef τ sig) := by
  rw [ops_eq, after_append, after_append, stageC_arg0, stageB_arg0, stageA_arg0]

/-- From any memory with zero counters every weakly fair execution of @main terminates with the result buffer at
    "refTerm" of the argument's launch contents, and the argument unchanged. -/
theorem run_term (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v25) = refTerm (m ((c.tc : Thread nD τ).loc main_arg0))
      ∧ r.2.mem ((c.tc : Thread nD τ).loc main_arg0) = m ((c.tc : Thread nD τ).loc main_arg0) :=
  (θ_run defs _ _).mono (fun _ h c => ⟨(h c main_v25).trans (out_eq _), (h c main_arg0).trans (arg0_eq _)⟩)
    (run_after m ρ)

end Cert.PatchShift.Ref

end
-- ==== Proof.RefValue.lean ====
/-
  The reference's result is the shifted array.

  The reference gathers the flattened array at start indices it computes over the plane of times `t` and patches `n`:
  a time component and a patch component, side by side along a last axis. Read at `(t, n)`, the time component is a
  function of the two words `t` and `s(n)` alone — the signed remainder of `t − s(n)` by 16, moved to a non-negative
  residue, then wrapped once more — and the patch component is `n` (its wrap never fires). The gather reads each start
  index as a signed integer and clamps it into its axis; on the sixteen times and the nine shift words the clamped time is
  `(t − s) mod 16`, decided case by case, and the clamped patch is `n`. So the gather at `(b, t, n, c)` is the array at
  `(b, (t − s(n)) mod 16, n, c)`.
-/
import proofs.«403649_j62474594287749_3_alg».proof.Proof.RefRun
import Idealize.ShloMosaic.Lib.ValueIdx
import Idealize.ShloMosaic.Lib.Pipeline.Value
import Idealize.ShloMosaic.Lib.IdealHost

noncomputable section

namespace Cert.PatchShift.Ref

open Cert.ReferenceIdeal Cert.ReferenceIdeal.Gen Idealize.ShloMosaic Idealize.ShloMosaic.ValueIdx

/-! ## The gather at an index -/

/-- The gather's dimension numbers: batch and channel are carried over whole, time and patch are looked up. -/
abbrev D : GatherDims S16x16x196x768 S16x196x2 S16x16x196x768 :=
  gather_S16x16x196x768_S16x196x2_S16x16x196x768_03_12_n_n_12_2_1611768

/-- The gather at `(b, t, n, c)`: the operand at batch `b`, channel `c`, and at the time and the patch that the two
    components of start index `(t, n)` name, each read signed and clamped into its axis. -/
theorem gather_apply {α : Type} (y : S16x16x196x768.Idx → α) (idx : IVec S16x196x2 32)
    (b : Fin 16) (t : Fin 16) (n : Fin 196) (c : Fin 768) :
    Host.gather D y idx (ix4 b t n c)
      = y (ix4 b ⟨min (idx (ix3 t n 0)).toInt.toNat 15, by omega⟩ ⟨min (idx (ix3 t n 1)).toInt.toNat 195, by omega⟩ c) := by
  unfold Host.gather
  congr 1
  funext a
  refine Fin.ext ?_
  show D.start (ix4 b t n c) idx a + D.batchCoord (ix4 b t n c) a + D.offCoord (ix4 b t n c) a = _
  rw [GatherDims.batchCoord_eq_zero _ _ _ List.not_mem_nil, Nat.add_zero]
  match a with
  | ⟨0, _⟩ =>
    have hs : D.start (ix4 b t n c) idx ⟨0, by decide⟩ = 0 := by
      unfold GatherDims.start; exact dif_neg (by decide)
    have ho : D.offCoord (ix4 b t n c) ⟨0, by decide⟩ = b.val := by
      unfold GatherDims.offCoord; rw [dif_pos (by decide)]; rfl
    rw [hs, ho, Nat.zero_add]
  | ⟨1, _⟩ =>
    have ho : D.offCoord (ix4 b t n c) ⟨1, by decide⟩ = 0 := GatherDims.offCoord_eq_zero _ _ _ (by decide)
    have hs : D.start (ix4 b t n c) idx ⟨1, by decide⟩ = min (idx (ix3 t n 0)).toInt.toNat 15 := by
      unfold GatherDims.start
      rw [dif_pos (by decide)]
      have hsi : D.siIdx (ix4 b t n c) ⟨List.idxOf (⟨1, by decide⟩ : Fin 4) D.startIndexMap,
          List.idxOf_lt_length_iff.2 (by decide)⟩ = ix3 t n 0 := by
        funext e; refine Fin.ext ?_
        match e with
        | ⟨0, _⟩ => rfl
        | ⟨1, _⟩ => rfl
        | ⟨2, _⟩ => rfl
      rw [hsi]
      rfl
    rw [hs, ho, Nat.add_zero]
  | ⟨2, _⟩ =>
    have ho : D.offCoord (ix4 b t n c) ⟨2, by decide⟩ = 0 := GatherDims.offCoord_eq_zero _ _ _ (by decide)
    have hs : D.start (ix4 b t n c) idx ⟨2, by decide⟩ = min (idx (ix3 t n 1)).toInt.toNat 195 := by
      unfold GatherDims.start
      rw [dif_pos (by decide)]
      have hsi : D.siIdx (ix4 b t n c) ⟨List.idxOf (⟨2, by decide⟩ : Fin 4) D.startIndexMap,
          List.idxOf_lt_length_iff.2 (by decide)⟩ = ix3 t n 1 := by
        funext e; refine Fin.ext ?_
        match e with
        | ⟨0, _⟩ => rfl
        | ⟨1, _⟩ => rfl
        | ⟨2, _⟩ => rfl
      rw [hsi]
      rfl
    rw [hs, ho, Nat.add_zero]
  | ⟨3, _⟩ =>
    have hs : D.start (ix4 b t n c) idx ⟨3, by decide⟩ = 0 := by
      unfold GatherDims.start; exact dif_neg (by decide)
    have ho : D.offCoord (ix4 b t n c) ⟨3, by decide⟩ = c.val := by
      unfold GatherDims.offCoord; rw [dif_pos (by decide)]; rfl
    rw [hs, ho, Nat.zero_add]

/-- The same with the two clamped components named. -/
theorem gather_at {α : Type} (y : S16x16x196x768.Idx → α) (idx : IVec S16x196x2 32)
    (b : Fin 16) (t : Fin 16) (n : Fin 196) (c : Fin 768) (t' : Fin 16) (n' : Fin 196)
    (ht : min (idx (ix3 t n 0)).toInt.toNat 15 = t'.val) (hn : min (idx (ix3 t n 1)).toInt.toNat 195 = n'.val) :
    Host.gather D y idx (ix4 b t n c) = y (ix4 b t' n' c) := by
  refine (gather_apply y idx b t n c).trans ?_
  have e1 : (⟨min (idx (ix3 t n 0)).toInt.toNat 15, by omega⟩ : Fin 16) = t' := Fin.ext ht
  have e2 : (⟨min (idx (ix3 t n 1)).toInt.toNat 195, by omega⟩ : Fin 196) = n' := Fin.ext hn
  rw [e1, e2]

/-! ## The integer arithmetic on one time and one shift word -/

/-- The divisor: 16, or 1 were it zero. -/
def divW : BitVec 32 := Scalar.select (IntOp.cmpi .eq 16#32 0#32) 1#32 16#32
/-- The signed remainder of `t − w` by the divisor. -/
def remW (t w : BitVec 32) : BitVec 32 := IntOp.remsi .host (IntOp.subi t w) divW
/-- The remainder moved to the divisor's sign. -/
def modW (t w : BitVec 32) : BitVec 32 :=
  Scalar.select
    (IntOp.andi (IntOp.cmpi .ne (IntOp.cmpi .slt (remW t w) 0#32) (IntOp.cmpi .slt divW 0#32)) (IntOp.cmpi .ne (remW t w) 0#32))
    (IntOp.addi (remW t w) divW) (remW t w)
/-- The time component: the modulus, with 16 added were it negative. -/
def timeWord (t w : BitVec 32) : BitVec 32 :=
  Scalar.select (IntOp.cmpi .slt (modW t w) 0#32) (IntOp.addi (modW t w) 16#32) (modW t w)
/-- The patch component: the patch number, with 196 added were it negative. -/
def patchWord (n : BitVec 32) : BitVec 32 := Scalar.select (IntOp.cmpi .slt n 0#32) (IntOp.addi n 196#32) n

/-- On the sixteen times and the nine shift words the clamped time component is `(t − s) mod 16`: word by word, the
    sixteen times decided. -/
theorem time_ok (t : Fin 16) (w : BitVec 32) (hw : w ∈ words) :
    min (timeWord (BitVec.ofNat 32 t.val) w).toInt.toNat 15 = (srcRow t w).val := by
  simp only [words, List.mem_cons, List.not_mem_nil, or_false] at hw
  rcases hw with rfl | rfl | rfl | rfl | rfl | rfl | rfl | rfl | rfl
  all_goals (revert t; decide)

/-- The clamped patch component is the patch. -/
theorem patch_ok : ∀ n : Fin 196, min (patchWord (BitVec.ofNat 32 n.val)).toInt.toNat 195 = n.val := by
  decide +kernel

/-- The constant list is the shift of each patch. -/
theorem lit_eq : ∀ n : Fin 196, lit0 n = shift n := by decide

/-! ## The index planes at an index -/

theorem cmpiAt {s : Shape} {w : Nat} (p : CmpIPredicate) (a b : IVec s w) (i : s.Idx) : cmpi p a b i = IntOp.cmpi p (a i) (b i) := rfl
theorem addiAt {s : Shape} {w : Nat} (a b : IVec s w) (i : s.Idx) : addi a b i = IntOp.addi (a i) (b i) := rfl
theorem subiAt {s : Shape} {w : Nat} (a b : IVec s w) (i : s.Idx) : subi a b i = IntOp.subi (a i) (b i) := rfl
theorem andiAt {s : Shape} {w : Nat} (a b : IVec s w) (i : s.Idx) : andi a b i = IntOp.andi (a i) (b i) := rfl
theorem remsiAt {s : Shape} {w : Nat} (a b : IVec s w) (i : s.Idx) : Host.remsi a b i = IntOp.remsi .host (a i) (b i) := rfl

/-- A vector of times laid down the plane's rows reads its entry at the row. -/
theorem timesPlane {α : Type} (v : S16.Idx → α) (t : Fin 16) (n : Fin 196) :
    broadcastInDim S16x196 ![0, 1] bcast_S16x1_S16x196_0_1 (broadcastInDim S16x1 ![0] bcast_S16_S16x1_0 v) (ix2 t n) = v (ix1 t) := by
  refine (broadcastInDim_apply ![0, 1] bcast_S16x1_S16x196_0_1 _ (ix2 t n) (ix2 t 0) ?_).trans ?_
  · intro a
    match a with
    | ⟨0, _⟩ => show t.val = if (16 : Nat) = 1 then 0 else t.val; rw [if_neg (by decide)]
    | ⟨1, _⟩ => rfl
  · refine broadcastInDim_apply ![0] bcast_S16_S16x1_0 v (ix2 t 0) (ix1 t) ?_
    intro a
    match a with
    | ⟨0, _⟩ => show t.val = if (16 : Nat) = 1 then 0 else t.val; rw [if_neg (by decide)]

/-- A row over the patches laid down the plane reads its entry at the column. -/
theorem patchPlane {α : Type} (x : S1x196.Idx → α) (t : Fin 16) (n : Fin 196) :
    broadcastInDim S16x196 ![0, 1] bcast_S1x196_S16x196_0_1 x (ix2 t n) = x (ix2 0 n) := by
  refine broadcastInDim_apply ![0, 1] bcast_S1x196_S16x196_0_1 x (ix2 t n) (ix2 0 n) ?_
  intro a
  match a with
  | ⟨0, _⟩ => rfl
  | ⟨1, _⟩ => show n.val = if (196 : Nat) = 1 then 0 else n.val; rw [if_neg (by decide)]

/-- A vector over the patches as a row reads its entry at the column. -/
theorem patchRowOf {α : Type} (v : S196.Idx → α) (n : Fin 196) :
    broadcastInDim S1x196 ![1] bcast_S196_S1x196_1 v (ix2 0 n) = v (ix1 n) := by
  refine broadcastInDim_apply ![1] bcast_S196_S1x196_1 v (ix2 0 n) (ix1 n) ?_
  intro a
  match a with
  | ⟨0, _⟩ => show n.val = if (196 : Nat) = 1 then 0 else n.val; rw [if_neg (by decide)]

/-- A plane given a last axis of length one reads the plane. -/
theorem lastAxis {α : Type} (x : S16x196.Idx → α) (t : Fin 16) (n : Fin 196) :
    broadcastInDim S16x196x1 ![0, 1] bcast_S16x196_S16x196x1_0_1 x (ix3 t n 0) = x (ix2 t n) := by
  refine broadcastInDim_apply ![0, 1] bcast_S16x196_S16x196x1_0_1 x (ix3 t n 0) (ix2 t n) ?_
  intro a
  match a with
  | ⟨0, _⟩ => show t.val = if (16 : Nat) = 1 then 0 else t.val; rw [if_neg (by decide)]
  | ⟨1, _⟩ => show n.val = if (196 : Nat) = 1 then 0 else n.val; rw [if_neg (by decide)]

/-- The table at patch `n` is the `n`-th word of the list. -/
theorem table_apply (n : Fin 196) : table (ix1 n) = lit0 n := by
  show lit0 (S196.rowMajor (ix1 n)) = lit0 n
  have e : S196.rowMajor (ix1 n) = n := Fin.ext (Shape.rowMajor_val_one _)
  rw [e]

/-- `t − s(n)` at `(t, n)`. -/
theorem diff_apply (t : Fin 16) (n : Fin 196) : diff (ix2 t n) = IntOp.subi (BitVec.ofNat 32 t.val) (lit0 n) := by
  unfold diff
  rw [subiAt, timesPlane, patchPlane, patchRowOf, table_apply]
  rfl

/-- The time component at `(t, n)` is the arithmetic on the words `t` and `s(n)`. -/
theorem timeIdx_apply (t : Fin 16) (n : Fin 196) : timeIdx (ix2 t n) = timeWord (BitVec.ofNat 32 t.val) (lit0 n) := by
  have hd := diff_apply t n
  simp only [timeIdx, modulo, rem, select_apply, cmpiAt, addiAt, andiAt, remsiAt, broadcastInDim_scalar_apply, hd]
  rfl

/-- The patch component at `(t, n)` is the arithmetic on the word `n`. -/
theorem patchIdx_apply (t : Fin 16) (n : Fin 196) : patchIdx (ix2 t n) = patchWord (BitVec.ofNat 32 n.val) := by
  unfold patchIdx
  rw [patchPlane]
  simp only [select_apply, cmpiAt, addiAt, broadcastInDim_scalar_apply, patchRow, patchRowOf]
  rfl

section Planes
attribute [local irreducible] timeIdx patchIdx

/-- The first of the two planes is the time component. -/
theorem startIdx_time (t : Fin 16) (n : Fin 196) : startIdx (ix3 t n 0) = timeIdx (ix2 t n) := by
  unfold startIdx
  refine Eq.trans (concatenate_apply_piece (t := S16x196x2) 2
    [⟨S16x196x1, broadcastInDim S16x196x1 ![0, 1] bcast_S16x196_S16x196x1_0_1 timeIdx⟩,
     ⟨S16x196x1, broadcastInDim S16x196x1 ![0, 1] bcast_S16x196_S16x196x1_0_1 patchIdx⟩]
    concatenates_S16x196x1_S16x196x1_S16x196x2_d2 (ix3 t n 0) 0 (by decide)
    S16x196x1 (broadcastInDim S16x196x1 ![0, 1] bcast_S16x196_S16x196x1_0_1 timeIdx) rfl rfl 0 rfl (ix3 t n 0) ?_ ?_)
    (lastAxis timeIdx t n)
  · intro b hb
    match b with
    | ⟨0, _⟩ => rfl
    | ⟨1, _⟩ => rfl
    | ⟨2, _⟩ => exact absurd rfl hb
  · rfl

/-- The second is the patch component. -/
theorem startIdx_patch (t : Fin 16) (n : Fin 196) : startIdx (ix3 t n 1) = patchIdx (ix2 t n) := by
  unfold startIdx
  refine Eq.trans (concatenate_apply_piece (t := S16x196x2) 2
    [⟨S16x196x1, broadcastInDim S16x196x1 ![0, 1] bcast_S16x196_S16x196x1_0_1 timeIdx⟩,
     ⟨S16x196x1, broadcastInDim S16x196x1 ![0, 1] bcast_S16x196_S16x196x1_0_1 patchIdx⟩]
    concatenates_S16x196x1_S16x196x1_S16x196x2_d2 (ix3 t n 1) 1 (by decide)
    S16x196x1 (broadcastInDim S16x196x1 ![0, 1] bcast_S16x196_S16x196x1_0_1 patchIdx) rfl rfl 1 (by decide) (ix3 t n 0) ?_ ?_)
    (lastAxis patchIdx t n)
  · intro b hb
    match b with
    | ⟨0, _⟩ => rfl
    | ⟨1, _⟩ => rfl
    | ⟨2, _⟩ => exact absurd rfl hb
  · rfl

end Planes

/-! ## The result -/

/-- The gather over the flattened array is the shifted array. -/
theorem gathered_eq {α : Type} (y : S16x16x196x768.Idx → α) : gathered y = rolled y := by
  funext j
  obtain ⟨b, t, n, c, rfl⟩ : ∃ (b : Fin 16) (t : Fin 16) (n : Fin 196) (c : Fin 768), j = ix4 b t n c :=
    ⟨j 0, j 1, j 2, j 3, eq_ix4 j⟩
  rw [rolled_apply]
  exact gather_at y startIdx b t n c (srcRow t (shift n)) n
    (by rw [startIdx_time, timeIdx_apply, lit_eq]; exact time_ok t _ (shift_mem n))
    (by rw [startIdx_patch, patchIdx_apply]; exact patch_ok n)

/-- THE REFERENCE'S RESULT is the specification's function of the argument array. -/
theorem refTerm_eq {α : Type} (x : S16x16x14x14x768.Idx → α) :
    refTerm x = G Cert.ReferenceIdeal.Gen.shapeCasts_S16x16x14x14x768_S16x16x196x768
      Cert.ReferenceIdeal.Gen.shapeCasts_S16x16x196x768_S16x16x14x14x768 x := by
  unfold refTerm G
  rw [gathered_eq]

end Cert.PatchShift.Ref

end
-- ==== Proof.RefMain.lean ====
/-
  The reference side of the certificate: from any memory with zero counters every weakly fair execution of the printed
  reference terminates with its result buffer at the patch-by-patch circular shift of its argument along the time axis,
  and the argument unchanged.

  The run reads the result as one named term of the argument (the flattened array gathered at the computed start
  indices, the grid restored), and the value lemma identifies that term with the shift.
-/
import proofs.«403649_j62474594287749_3_alg».proof.Proof.RefRead
import proofs.«403649_j62474594287749_3_alg».proof.Proof.RefValue

noncomputable section

namespace Cert.PatchShift.Ref

open Idealize.ShloMosaic Idealize.ShloMosaic.TcCoe Idealize.SL.Sem Idealize.ShloMosaic.StableHlo

theorem run (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      (fun r => ∀ c : Dev Cert.ReferenceIdeal.nD,
        r.2.mem ((c.tc : Thread Cert.ReferenceIdeal.nD Cert.ReferenceIdeal.τ).loc Cert.ReferenceIdeal.main_v25)
            = Cert.PatchShift.G Cert.ReferenceIdeal.Gen.shapeCasts_S16x16x14x14x768_S16x16x196x768
                Cert.ReferenceIdeal.Gen.shapeCasts_S16x16x196x768_S16x16x14x14x768
                (m ((c.tc : Thread Cert.ReferenceIdeal.nD Cert.ReferenceIdeal.τ).loc Cert.ReferenceIdeal.main_arg0))
        ∧ r.2.mem ((c.tc : Thread Cert.ReferenceIdeal.nD Cert.ReferenceIdeal.τ).loc Cert.ReferenceIdeal.main_arg0)
            = m ((c.tc : Thread Cert.ReferenceIdeal.nD Cert.ReferenceIdeal.τ).loc Cert.ReferenceIdeal.main_arg0)) :=
  (θ_run _ _ _).mono (fun _ h c => ⟨(h c).1.trans (refTerm_eq _), (h c).2⟩) (run_term (F := Ideal) m ρ)

end Cert.PatchShift.Ref

end
-- ==== Proof.lean ====
/-
  A per-patch circular shift along time: the kernel against the gather.

  Both programs take `x : [16, 16, 14, 14, 768]` (batch, time, patch row, patch column, channel), flatten the 14 × 14
  patches to `n < 196`, move each patch along the time axis by its fixed shift `s(n)` between −4 and 4 — the result at
  time `t` is the input at time `(t − s(n)) mod 16` — and restore the patch grid (`Cert.PatchShift.G`).

  The kernel does it block by block (one batch entry and one half of the channels per grid point): for each time it
  starts from the row for shift −4 and overrides it, where the patch's shift word is −3, …, 4, by the row for that shift;
  on the nine possible words that chain reads exactly the row `(t − s) mod 16`, and the 32 blocks tile the array.
  The reference computes the table of times `(t − s(n)) mod 16` with integer arithmetic (a remainder by 16 corrected to be
  non-negative) and gathers along time and patch with it. No arithmetic is done on the elements by either program, so
  the two results agree at every input and finiteness is never used. The idealization rewrote nothing.
-/
import proofs.«403649_j62474594287749_3_alg».proof.Defs
import proofs.«403649_j62474594287749_3_alg».proof.Proof.Gen.Kernel
import proofs.«403649_j62474594287749_3_alg».proof.Proof.Gen.Kernel.Skeleton
import proofs.«403649_j62474594287749_3_alg».proof.Proof.Gen.Kernel.Launch
import proofs.«403649_j62474594287749_3_alg».proof.Proof.Gen.Kernel.Points
import proofs.«403649_j62474594287749_3_alg».proof.Proof.Gen.Kernel.Frame
import proofs.«403649_j62474594287749_3_alg».proof.Proof.Gen.KernelIdeal
import proofs.«403649_j62474594287749_3_alg».proof.Proof.Gen.KernelIdeal.Skeleton
import proofs.«403649_j62474594287749_3_alg».proof.Proof.Gen.KernelIdeal.Launch
import proofs.«403649_j62474594287749_3_alg».proof.Proof.Gen.KernelIdeal.Points
import proofs.«403649_j62474594287749_3_alg».proof.Proof.Gen.KernelIdeal.Frame
import proofs.«403649_j62474594287749_3_alg».proof.Proof.Gen.ReferenceIdeal
import proofs.«403649_j62474594287749_3_alg».proof.Proof.Gen.Pre_finite_inputs
import proofs.«403649_j62474594287749_3_alg».proof.Proof.KRun
import proofs.«403649_j62474594287749_3_alg».proof.Proof.RefMain
import Idealize.ShloMosaic.Adequacy
import Idealize.ShloMosaic.Init

noncomputable section

namespace Cert.Proof

open Idealize.ShloMosaic Idealize.SL.Sem

/-- The word-level kernel runs and leaves its argument alone. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference runs and leaves its argument alone: its run, the result forgotten. -/
theorem frame_referenceIdeal : Cert.frame_ReferenceIdeal := fun m ρ _ =>
  (θ_run Cert.ReferenceIdeal.defs _ _).mono (fun _ h c => (h c).2) (Cert.PatchShift.Ref.run m ρ)

/-- Nothing was rewritten, so nothing is owed. -/
theorem preserves : Cert.preserves_Kernel_KernelIdeal := trivial

/-- From memories that agree on the argument both programs end with the shifted array. -/
theorem algebraic : Cert.algebraic_KernelIdeal_ReferenceIdeal := by
  intro m ρ m' ρ' _ hagree
  refine ⟨_, Cert.PatchShift.Kernel.run (F := Ideal) m ρ, ?_⟩
  refine (θ_run Cert.ReferenceIdeal.defs _ _).mono (fun _ h c => ⟨(h c).1.trans ?_, (h c).2⟩)
    (Cert.PatchShift.Ref.run m' ρ')
  rw [hagree c]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
